-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x512 : Shape := ⟨2, ![4096, 512]⟩
abbrev S512x2048 : Shape := ⟨2, ![512, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048 .f32) (main_arg12 : FVec F S4096x512 .f32) (main_arg13 : FVec F S512x2048 .f32) (main_arg14 : FVec F S2048 .f32) (main_v48 : IVec S_ 1) (main_v49 : FVec F S512x2048 .f32) (main_v50 : FVec F S512x2048 .f32) : IVec S_ 1 :=
  let main_v51 : IVec S512x2048 1 := cmpf .olt main_v49 main_v50
  let main_c_19 : IVec S_ 1 := constantI S_ 1 1#1
  let main_v52 : IVec S_ 1 := (fun x v => Host.reduce IntOp.andi x v reducesTo_S512x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S4096x512 .f32 := Host.absf main_arg12
  let main_cst_22 : FVec F S_ .f32 := constant S_ .f32 0x7F800000#32
  let main_v60 : FVec F S4096x512 .f32 := broadcastInDim S4096x512 ![] bcast_S_S4096x512 main_cst_22
  let main_v61 : IVec S4096x512 1 := cmpf .olt main_v59 main_v60
  let main_c_23 : IVec S_ 1 := constantI S_ 1 1#1
  let main_v62 : IVec S_ 1 := (fun x v => Host.reduce IntOp.andi x v reducesTo_S4096x512_S_d0_1 h_S_) main_v61 main_c_23
  let main_v63 : IVec S_ 1 := andi main_v58 main_v62
  let main_v64 : FVec F S512x2048 .f32 := Host.absf main_arg13
  let main_cst_24 : FVec F S_ .f32 := constant S_ .f32 0x7F800000#32
  let main_v65 : FVec F S512x2048 .f32 := broadcastInDim S512x2048 ![] bcast_S_S512x2048 main_cst_24
  let main_v66 : IVec S512x2048 1 := cmpf .olt main_v64 main_v65
  let main_c_25 : IVec S_ 1 := constantI S_ 1 1#1
  let main_v67 : IVec S_ 1 := (fun x v => Host.reduce IntOp.andi x v reducesTo_S512x2048_S_d0_1 h_S_) main_v66 main_c_25
  fn_part4 (F := F) main_arg14 main_v63 main_v67

def fn_part2 {F : FTy → Type} [FloatOps F] (main_arg7 : FVec F S512x2048 .f32) (main_arg8 : FVec F S2048 .f32) (main_arg9 : FVec F S4096x512 .f32) (main_arg10 : FVec F S512x2048 .f32) (main_arg11 : FVec F S2048 .f32) (main_arg12 : FVec F S4096x512 .f32) (main_arg13 : FVec F S512x2048 .f32) (main_arg14 : FVec F S2048 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S4096x512 .f32 := Host.absf main_arg9
  let main_cst_16 : FVec F S_ .f32 := constant S_ .f32 0x7F800000#32
  let main_v45 : FVec F S4096x512 .f32 := broadcastInDim S4096x512 ![] bcast_S_S4096x512 main_cst_16
  let main_v46 : IVec S4096x512 1 := cmpf .olt main_v44 main_v45
  let main_c_17 : IVec S_ 1 := constantI S_ 1 1#1
  let main_v47 : IVec S_ 1 := (fun x v => Host.reduce IntOp.andi x v reducesTo_S4096x512_S_d0_1 h_S_) main_v46 main_c_17
  let main_v48 : IVec S_ 1 := andi main_v43 main_v47
  let main_v49 : FVec F S512x2048 .f32 := Host.absf main_arg10
  let main_cst_18 : FVec F S_ .f32 := constant S_ .f32 0x7F800000#32
  let main_v50 : FVec F S512x2048 .f32 := broadcastInDim S512x2048 ![] bcast_S_S512x2048 main_cst_18
  fn_part3 (F := F) main_arg11 main_arg12 main_arg13 main_arg14 main_v48 main_v49 main_v50

def fn_part1 {F : FTy → Type} [FloatOps F] (main_arg4 : FVec F S512x2048 .f32) (main_arg5 : FVec F S2048 .f32) (main_arg6 : FVec F S4096x512 .f32) (main_arg7 : FVec F S512x2048 .f32) (main_arg8 : FVec F S2048 .f32) (main_arg9 : FVec F S4096x512 .f32) (main_arg10 : FVec F S512x2048 .f32) (main_arg11 : FVec F S2048 .f32) (main_arg12 : FVec F S4096x512 .f32) (main_arg13 : FVec F S512x2048 .f32) (main_arg14 : FVec F S2048 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S4096x512 .f32 := Host.absf main_arg6
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x2048 .f32) (main_arg1 : FVec F S8192x2048 .f32) (main_arg2 : FVec F S8192x2048 .f32) (main_arg3 : FVec F S4096x512 .f32) (main_arg4 : FVec F S512x2048 .f32) (main_arg5 : FVec F S2048 .f32) (main_arg6 : FVec F S4096x512 .f32) (main_arg7 : FVec F S512x2048 .f32) (main_arg8 : FVec F S2048 .f32) (main_arg9 : FVec F S4096x512 .f32) (main_arg10 : FVec F S512x2048 .f32) (main_arg11 : FVec F S2048 .f32) (main_arg12 : FVec F S4096x512 .f32) (main_arg13 : FVec F S512x2048 .f32) (main_arg14 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x2048 : Shape := ⟨2, ![8192, 2048]⟩
abbrev S4096x512 : Shape := ⟨2, ![4096, 512]⟩
abbrev S512x2048 : Shape := ⟨2, ![512, 2048]⟩
abbrev S2048 : Shape := ⟨1, ![2048]⟩
abbrev S2048x512 : Shape := ⟨2, ![2048, 512]⟩
abbrev S1x2048 : Shape := ⟨2, ![1, 2048]⟩
abbrev S128x2048 : Shape := ⟨2, ![128, 2048]⟩
abbrev S128x512 : Shape := ⟨2, ![128, 512]⟩

abbrev nBuf : Space → Nat
  | .hbm => 41
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S4096x512, .f32⟩
  | .hbm, ⟨4, _⟩ => ⟨S512x2048, .f32⟩
  | .hbm, ⟨5, _⟩ => ⟨S2048, .f32⟩
  | .hbm, ⟨6, _⟩ => ⟨S4096x512, .f32⟩
  | .hbm, ⟨7, _⟩ => ⟨S512x2048, .f32⟩
  | .hbm, ⟨8, _⟩ => ⟨S2048, .f32⟩
  | .hbm, ⟨9, _⟩ => ⟨S4096x512, .f32⟩
  | .hbm, ⟨10, _⟩ => ⟨S512x2048, .f32⟩
  | .hbm, ⟨11, _⟩ => ⟨S2048, .f32⟩
  | .hbm, ⟨12, _⟩ => ⟨S4096x512, .f32⟩
  | .hbm, ⟨13, _⟩ => ⟨S512x2048, .f32⟩
  | .hbm, ⟨14, _⟩ => ⟨S2048, .f32⟩
  | .hbm, ⟨15, _⟩ => ⟨S2048x512, .f32⟩
  | .hbm, ⟨16, _⟩ => ⟨S2048x512, .bf16⟩
  | .hbm, ⟨17, _⟩ => ⟨S2048x512, .f32⟩
  | .hbm, ⟨18, _⟩ => ⟨S2048x512, .bf16⟩
  | .hbm, ⟨19, _⟩ => ⟨S2048x512, .f32⟩
  | .hbm, ⟨20, _⟩ => ⟨S2048x512, .bf16⟩
  | .hbm, ⟨21, _⟩ => ⟨S2048x512, .f32⟩
  | .hbm, ⟨22, _⟩ => ⟨S2048x512, .bf16⟩
  | .hbm, ⟨23, _⟩ => ⟨S2048x512, .f32⟩
  | .hbm, ⟨24, _⟩ => ⟨S2048x512, .bf16⟩
  | .hbm, ⟨25, _⟩ => ⟨S2048x512, .f32⟩
  | .hbm, ⟨26, _⟩ => ⟨S2048x512, .bf16⟩
  | .hbm, ⟨27, _⟩ => ⟨S2048x512, .f32⟩
  | .hbm, ⟨28, _⟩ => ⟨S2048x512, .bf16⟩
  | .hbm, ⟨29, _⟩ => ⟨S2048x512, .f32⟩
  | .hbm, ⟨30, _⟩ => ⟨S2048x512, .bf16⟩
  | .hbm, ⟨31, _⟩ => ⟨S512x2048, .bf16⟩
  | .hbm, ⟨32, _⟩ => ⟨S512x2048, .bf16⟩
  | .hbm, ⟨33, _⟩ => ⟨S512x2048, .bf16⟩
  | .hbm, ⟨34, _⟩ => ⟨S512x2048, .bf16⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S8192x2048, .f32⟩
  | .hbm, ⟨40, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S1x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S1x2048, .f32⟩
  | .local _ .vmem, ⟨14, _⟩ => ⟨S2048x512, .bf16⟩
  | .local _ .vmem, ⟨15, _⟩ => ⟨S2048x512, .bf16⟩
  | .local _ .vmem, ⟨16, _⟩ => ⟨S512x2048, .bf16⟩
  | .local _ .vmem, ⟨17, _⟩ => ⟨S1x2048, .f32⟩
  | .local _ .vmem, ⟨18, _⟩ => ⟨S2048x512, .bf16⟩
  | .local _ .vmem, ⟨19, _⟩ => ⟨S2048x512, .bf16⟩
  | .local _ .vmem, ⟨20, _⟩ => ⟨S512x2048, .bf16⟩
  | .local _ .vmem, ⟨21, _⟩ => ⟨S1x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S128x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  slices_S4096x512_S2048x512_0_0 : S4096x512.Slices ![0, 0] S2048x512
  bitsLt_bf16_f32 : FTy.bits .bf16 < FTy.bits .f32
  slices_S4096x512_S2048x512_2048_0 : S4096x512.Slices ![2048, 0] S2048x512
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  dot_S128x2048_S2048x512_S128x512_1_0_0_1_n_n_wf : DotDims.WF S128x2048 S2048x512 S128x512 [1] [0] [0] [1] [] []
  dot_S128x512_S512x2048_S128x2048_1_0_0_1_n_n_wf : DotDims.WF S128x512 S512x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S8192x2048.size a
  hwx0_2 : ∀ i : grid0.Coords, EltTy.bits .f32 = 32 ∨ (Rect.block (s := S8192x2048) S128x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x512.size a
  hwx0_7 : ∀ i : grid0.Coords, EltTy.bits .bf16 = 32 ∨ (Rect.block (s := S2048x512) S2048x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S2048x512.size a
  hwx0_8 : ∀ i : grid0.Coords, EltTy.bits .bf16 = 32 ∨ (Rect.block (s := S2048x512) S2048x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x2048.size a ≤ S512x2048.size a
  hwx0_9 : ∀ i : grid0.Coords, EltTy.bits .bf16 = 32 ∨ (Rect.block (s := S512x2048) S512x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x512.size a ≤ S2048x512.size a
  hwx0_11 : ∀ i : grid0.Coords, EltTy.bits .bf16 = 32 ∨ (Rect.block (s := S2048x512) S2048x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2048x512.size a ≤ S2048x512.size a
  hwx0_12 : ∀ i : grid0.Coords, EltTy.bits .bf16 = 32 ∨ (Rect.block (s := S2048x512) S2048x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x2048.size a ≤ S512x2048.size a
  hwx0_13 : ∀ i : grid0.Coords, EltTy.bits .bf16 = 32 ∨ (Rect.block (s := S512x2048) S512x2048.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x2048.size a ≤ S1x2048.size a
  hwx0_14 : ∀ i : grid0.Coords, EltTy.bits .f32 = 32 ∨ (Rect.block (s := S1x2048) S1x2048.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2048x512.size a ≤ S2048x512.size a
  hwx0_15 : ∀ i : grid0.Coords, EltTy.bits .bf16 = 32 ∨ (Rect.block (s := S2048x512) S2048x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2048x512.size a ≤ S2048x512.size a
  hwx0_16 : ∀ i : grid0.Coords, EltTy.bits .bf16 = 32 ∨ (Rect.block (s := S2048x512) S2048x512.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x2048.size a ≤ S512x2048.size a
  hwx0_17 : ∀ i : grid0.Coords, EltTy.bits .bf16 = 32 ∨ (Rect.block (s := S512x2048) S512x2048.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x2048.size a ≤ S1x2048.size a
  hwx0_18 : ∀ i : grid0.Coords, EltTy.bits .f32 = 32 ∨ (Rect.block (s := S1x2048) S1x2048.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S128x2048.size a ≤ S8192x2048.size a
  hwx0_19 : ∀ i : grid0.Coords, EltTy.bits .f32 = 32 ∨ (Rect.block (s := S8192x2048) S128x2048.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S128x2048.size a ≤ S8192x2048.size a
  hwx0_20 : ∀ i : grid0.Coords, EltTy.bits .f32 = 32 ∨ (Rect.block (s := S8192x2048) S128x2048.size (cc0_transform_20 i) (hinb0_20 i)).WholeWords (EltTy.packing .f32)

variable [Facts₀]

def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2048x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S2048x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S512x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S2048x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S2048x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S512x2048.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v22) S1x2048.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S2048x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v15) S2048x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v19) S512x2048.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v23) S1x2048.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v24_0) S128x2048.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v24_1) S128x2048.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S4096x512 : Shape := ⟨2, ![4096, 512]⟩
abbrev S512x2048 : Shape := ⟨2, ![512, 2048]⟩
abbrev S2048 : Shape := ⟨1, ![2048]⟩
abbrev S8192x4096 : Shape := ⟨2, ![8192, 4096]⟩
abbrev S8192x512 : Shape := ⟨2, ![8192, 512]⟩
abbrev S1x2048 : Shape := ⟨2, ![1, 2048]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S4096x512, .f32⟩
  | .hbm, ⟨4, _⟩ => ⟨S512x2048, .f32⟩
  | .hbm, ⟨5, _⟩ => ⟨S2048, .f32⟩
  | .hbm, ⟨6, _⟩ => ⟨S4096x512, .f32⟩
  | .hbm, ⟨7, _⟩ => ⟨S512x2048, .f32⟩
  | .hbm, ⟨8, _⟩ => ⟨S2048, .f32⟩
  | .hbm, ⟨9, _⟩ => ⟨S4096x512, .f32⟩
  | .hbm, ⟨10, _⟩ => ⟨S512x2048, .f32⟩
  | .hbm, ⟨11, _⟩ => ⟨S2048, .f32⟩
  | .hbm, ⟨12, _⟩ => ⟨S4096x512, .f32⟩
  | .hbm, ⟨13, _⟩ => ⟨S512x2048, .f32⟩
  | .hbm, ⟨14, _⟩ => ⟨S2048, .f32⟩
  | .hbm, ⟨15, _⟩ => ⟨S8192x4096, .f32⟩
  | .hbm, ⟨16, _⟩ => ⟨S8192x512, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x512, .f32⟩
  | .hbm, ⟨30, _⟩ => ⟨S8192x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x512, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S8192x512, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x4096_S4096x512_S8192x512_1_0_0_1_n_n_wf : DotDims.WF S8192x4096 S4096x512 S8192x512 [1] [0] [0] [1] [] []
  dot_S8192x512_S512x2048_S8192x2048_1_0_0_1_n_n_wf : DotDims.WF S8192x512 S512x2048 S8192x2048 [1] [0] [0] [1] [] []

variable [Facts₀]

def dot_S8192x4096_S4096x512_S8192x512_1_0_0_1_n_n : DotDims S8192x4096 S4096x512 S8192x512 where
  lhsContracting := [1]
  rhsContracting := [0]
  lhsNonContracting := [0]
  rhsNonContracting := [1]
  lhsBatch := []
  rhsBatch := []
  wf := dot_S8192x4096_S4096x512_S8192x512_1_0_0_1_n_n_wf
def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf

class Facts : Prop extends Facts₀ where

variable [Facts]
-- ==== Proof.Cell.lean ====
/-
  The factorized LSTM cell as plain mathematics on the extended reals, with no program in sight.

  For a batch row `(xr, hr)` of the concatenated input `[x | h]` (2048 + 2048 entries), one gate's pre-activation at output
  column `j` is `((xr, hr) · U) · V[:, j] + b[j]`, the contraction with `U` (4096 × 512) written as the sum over its top half
  (rows 0 … 2047, met by `xr`) plus the sum over its bottom half (rows 2048 … 4095, met by `hr`). The cell is
  `c' = σ(z_f) · c + σ(z_i) · tanh(z_c)`, `h' = σ(z_o) · tanh(c')` with `σ` the logistic function.

  Two laws join the two programs. A sum over 4096 terms is the sum over the first 2048 plus the sum over the last 2048
  (addition on the extended reals is commutative and associative, so this needs no finiteness). And `1 / (1 + e^(-z))` with
  the single-precision pattern of one for both ones IS the logistic function, at every extended real.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- A matrix of extended reals, indexed as the printed programs index a rank-2 array. -/
abbrev Mat (a b : Nat) : Type := (⟨2, ![a, b]⟩ : Shape).Idx → EReal
/-- A vector of extended reals, indexed as the printed programs index a rank-1 array. -/
abbrev Row (n : Nat) : Type := (⟨1, ![n]⟩ : Shape).Idx → EReal

/-! ## The two laws -/

/-- The single-precision pattern `0x3F800000` denotes the real number one. -/
theorem one_f32 : Ideal.ofBits .f32 0x3F800000#32 = 1 := by
  simp [Ideal.ofBits, Ideal.ieee, -EReal.coe_mul]; norm_num

/-- `1 / (1 + e^(-z))`, spelt with the host's division and the pattern of one, is the logistic function of `z` on every
    extended real (the corners `⊥ ↦ 0`, `⊤ ↦ 1` included: both sides are the same expression). -/
theorem logistic_spelt (z : EReal) :
    Ideal.div (Ideal.ofBits .f32 0x3F800000#32) (Ideal.ofBits .f32 0x3F800000#32 + Ideal.exp (-z)) = Ideal.logistic z := by
  rw [one_f32]; rfl

/-- A sum over 4096 terms is the sum over the first 2048 plus the sum over the last 2048. -/
theorem sum_halves {M : Type} [AddCommMonoid M] (f : Fin 4096 → M) :
    ∑ k : Fin 4096, f k
      = (∑ k : Fin 2048, f ⟨k.val, by omega⟩) + ∑ k : Fin 2048, f ⟨2048 + k.val, by omega⟩ :=
  Fin.sum_univ_add (a := 2048) (b := 2048) f

/-! ## One gate, one element -/

/-- One gate's pre-activation at one output element: the row `(xr, hr)` against the top half `ux` and the bottom half `uh` of
    the gate's first factor, the 512 results against the column `v` of its second factor, plus the bias entry `b`. -/
def pre (xr hr : Fin 2048 → EReal) (ux uh : Fin 2048 → Fin 512 → EReal) (v : Fin 512 → EReal) (b : EReal) : EReal :=
  (∑ r : Fin 512, ((∑ k : Fin 2048, xr k * ux k r) + ∑ k : Fin 2048, hr k * uh k r) * v r) + b

/-- The new cell state at one element from the forget, input and candidate pre-activations and the old cell state. -/
def cNew (zf zi zc cv : EReal) : EReal := Ideal.logistic zf * cv + Ideal.logistic zi * Ideal.tanh zc

/-- The new hidden state at one element from the output pre-activation and the new cell state. -/
def hNew (zo cn : EReal) : EReal := Ideal.logistic zo * Ideal.tanh cn

/-! ## The whole arrays -/

/-- One gate's pre-activation at element `(i, j)` of the batch, from the whole arrays: row `i` of `x` and of `h`, the two
    halves of `U`, column `j` of `V`, entry `j` of `b`. -/
def gate (x h : Mat 8192 2048) (U : Mat 4096 512) (V : Mat 512 2048) (b : Row 2048) (i : Fin 8192) (j : Fin 2048) : EReal :=
  pre (fun k => x (ix2 i k)) (fun k => h (ix2 i k))
    (fun k r => U (ix2 (⟨k.val, by omega⟩ : Fin 4096) r)) (fun k r => U (ix2 (⟨2048 + k.val, by omega⟩ : Fin 4096) r))
    (fun r => V (ix2 r j)) (b (ix1 j))

/-- The new cell state, as one function of the argument arrays, index by index. -/
def cellC (x h c : Mat 8192 2048) (Ui : Mat 4096 512) (Vi : Mat 512 2048) (bi : Row 2048)
    (Uf : Mat 4096 512) (Vf : Mat 512 2048) (bf : Row 2048) (Uc : Mat 4096 512) (Vc : Mat 512 2048) (bc : Row 2048) :
    Mat 8192 2048 := fun idx =>
  cNew (gate x h Uf Vf bf (idx 0) (idx 1)) (gate x h Ui Vi bi (idx 0) (idx 1)) (gate x h Uc Vc bc (idx 0) (idx 1)) (c idx)

/-- The new hidden state, as one function of the argument arrays, index by index. -/
def cellH (x h c : Mat 8192 2048) (Ui : Mat 4096 512) (Vi : Mat 512 2048) (bi : Row 2048)
    (Uf : Mat 4096 512) (Vf : Mat 512 2048) (bf : Row 2048) (Uc : Mat 4096 512) (Vc : Mat 512 2048) (bc : Row 2048)
    (Uo : Mat 4096 512) (Vo : Mat 512 2048) (bo : Row 2048) : Mat 8192 2048 := fun idx =>
  hNew (gate x h Uo Vo bo (idx 0) (idx 1)) (cellC x h c Ui Vi bi Uf Vf bf Uc Vc bc idx)

end Cert.Lstm

end
-- ==== Proof.RefCell.lean ====
/-
  The reference computes the cell of `Cell.lean`.

  Its program joins `x` and `h` along the columns, so entry `(i, k)` of the joined array is `x (i, k)` for `k < 2048` and
  `h (i, k - 2048)` from there on. A gate contracts row `i` of the joined array with `U` over all 4096 rows, which by
  `sum_halves` is the contraction of `x`'s row with the top half of `U` plus that of `h`'s row with the bottom half; the 512
  results meet column `j` of `V`, and the bias, broadcast over the batch, adds entry `j`. The reference spells each sigmoid as
  `1 / (1 + e^(-z))`, which is the logistic function (`logistic_spelt`). All four gates are the same operations of different
  weights, so the gate and the sigmoid are proved once, over arbitrary weights.
-/
import proofs.«162020_j19009525252388_1_alg».proof.Proof.Gen.ReferenceIdeal.Read
import proofs.«162020_j19009525252388_1_alg».proof.Proof.Cell

noncomputable section

namespace Cert.ReferenceIdeal.RefCell

open Cert.ReferenceIdeal Cert.ReferenceIdeal.Read Idealize.ShloMosaic Idealize.ShloMosaic.ValueIdx Cert.Lstm

/-! ## The joined array at an index -/

/-- Left of column 2048 the joined array is `x`. -/
theorem joined_left (x0 x1 : Mat 8192 2048) (i : Fin 8192) (k : Fin 2048) :
    val_main_v0 (F := Ideal) x0 x1 (ix2 i (⟨k.val, by omega⟩ : Fin 4096)) = x0 (ix2 i k) := by
  unfold val_main_v0
  refine concatenate_pair_apply_left (t := S8192x4096) (s₁ := S8192x2048) (s₂ := S8192x2048) _ x0 x1 _ _ rfl (ix2 i k) ?_
  intro b
  match b with
  | ⟨0, _⟩ => rfl
  | ⟨1, _⟩ => rfl

/-- From column 2048 on it is `h`, 2048 columns to the left. -/
theorem joined_right (x0 x1 : Mat 8192 2048) (i : Fin 8192) (k : Fin 2048) :
    val_main_v0 (F := Ideal) x0 x1 (ix2 i (⟨2048 + k.val, by omega⟩ : Fin 4096)) = x1 (ix2 i k) := by
  unfold val_main_v0
  refine concatenate_pair_apply_right (t := S8192x4096) (s₁ := S8192x2048) (s₂ := S8192x2048) _ x0 x1 _ _ rfl rfl (ix2 i k) ?_ ?_
  · intro b hb
    match b, hb with
    | ⟨0, _⟩, _ => rfl
    | ⟨1, _⟩, hb => exact absurd rfl hb
  · show k.val + 2048 = 2048 + k.val
    omega

/-! ## Where each stage of a gate reads its operands -/

theorem lhs_first (p : Fin 8192) (q : Fin 2048) (r : Fin 512) (k : Fin 4096) :
    lidx_main_v1 (lidx_main_v2 (ix2 p q) r) k = ix2 p k :=
  funext fun a => Fin.ext (by match a with | ⟨0, _⟩ => rfl | ⟨1, _⟩ => rfl)

theorem rhs_first (p : Fin 8192) (q : Fin 2048) (r : Fin 512) (k : Fin 4096) :
    ridx_main_v1 (lidx_main_v2 (ix2 p q) r) k = ix2 k r :=
  funext fun a => Fin.ext (by match a with | ⟨0, _⟩ => rfl | ⟨1, _⟩ => rfl)

theorem rhs_second (p : Fin 8192) (q : Fin 2048) (r : Fin 512) : ridx_main_v2 (ix2 p q) r = ix2 r q :=
  funext fun a => Fin.ext (by match a with | ⟨0, _⟩ => rfl | ⟨1, _⟩ => rfl)

theorem bias_at (p : Fin 8192) (q : Fin 2048) : idx_main_v3 (idx_main_v4 (ix2 p q)) = ix1 q :=
  funext fun a => Fin.ext (by match a with | ⟨0, _⟩ => rfl)

/-! ## One gate and one sigmoid, over arbitrary weights -/

/-- A gate's pre-activation, as the reference computes it, is `gate` of the arrays at the index's row and column. -/
theorem gate_eq (x0 x1 : Mat 8192 2048) (U : Mat 4096 512) (V : Mat 512 2048) (b : Row 2048) (p : Fin 8192) (q : Fin 2048) :
    val_main_v5 (F := Ideal) x0 x1 U V b (ix2 p q) = gate x0 x1 U V b p q := by
  rw [val_main_v5_apply, val_main_v2_apply, val_main_v4_apply, val_main_v3_apply, bias_at]
  unfold gate pre
  show _ + _ = _ + _
  congr 1
  refine Finset.sum_congr rfl fun r _ => ?_
  rw [val_main_v1_apply, rhs_second, sum_halves]
  congr 1
  congr 1
  · refine Finset.sum_congr rfl fun k _ => ?_
    rw [lhs_first, rhs_first, joined_left]
  · refine Finset.sum_congr rfl fun k _ => ?_
    rw [lhs_first, rhs_first, joined_right]

/-- The reference's `1 / (1 + e^(-z))` over a gate is the logistic function of the gate. -/
theorem sigmoid_eq (x0 x1 : Mat 8192 2048) (U : Mat 4096 512) (V : Mat 512 2048) (b : Row 2048) (i : S8192x2048.Idx) :
    val_main_v11 (F := Ideal) x0 x1 U V b i = Ideal.logistic (val_main_v5 (F := Ideal) x0 x1 U V b i) := by
  rw [val_main_v11_apply, val_main_v10_apply, val_main_cst_0_apply, val_main_v9_apply, val_main_v8_apply,
    val_main_cst_apply, val_main_v7_apply, val_main_v6_apply]
  exact logistic_spelt _

/-! ## The two results -/

/-- The reference's second result is the new cell state. -/
theorem cell_eq (x0 x1 x2 : Mat 8192 2048) (x3 : Mat 4096 512) (x4 : Mat 512 2048) (x5 : Row 2048)
    (x6 : Mat 4096 512) (x7 : Mat 512 2048) (x8 : Row 2048) (x9 : Mat 4096 512) (x10 : Mat 512 2048) (x11 : Row 2048) :
    val_main_v42 (F := Ideal) x0 x1 x2 x3 x4 x5 x6 x7 x8 x9 x10 x11 = cellC x0 x1 x2 x3 x4 x5 x6 x7 x8 x9 x10 x11 := by
  funext i
  obtain ⟨p, q, rfl⟩ : ∃ (p : Fin 8192) (q : Fin 2048), i = ix2 p q := ⟨i 0, i 1, eq_ix2 i⟩
  rw [val_main_v42_apply, val_main_v40_apply, val_main_v41_apply, val_main_v39_apply,
    show val_main_v22 (F := Ideal) x0 x1 x6 x7 x8 = val_main_v11 (F := Ideal) x0 x1 x6 x7 x8 from rfl,
    show val_main_v38 (F := Ideal) x0 x1 x9 x10 x11 = val_main_v5 (F := Ideal) x0 x1 x9 x10 x11 from rfl,
    sigmoid_eq, sigmoid_eq, gate_eq, gate_eq, gate_eq]
  rfl

/-- The reference's first result is the new hidden state. -/
theorem hidden_eq (x0 x1 x2 : Mat 8192 2048) (x3 : Mat 4096 512) (x4 : Mat 512 2048) (x5 : Row 2048)
    (x6 : Mat 4096 512) (x7 : Mat 512 2048) (x8 : Row 2048) (x9 : Mat 4096 512) (x10 : Mat 512 2048) (x11 : Row 2048)
    (x12 : Mat 4096 512) (x13 : Mat 512 2048) (x14 : Row 2048) :
    val_main_v44 (F := Ideal) x0 x1 x2 x3 x4 x5 x6 x7 x8 x9 x10 x11 x12 x13 x14
      = cellH x0 x1 x2 x3 x4 x5 x6 x7 x8 x9 x10 x11 x12 x13 x14 := by
  funext i
  obtain ⟨p, q, rfl⟩ : ∃ (p : Fin 8192) (q : Fin 2048), i = ix2 p q := ⟨i 0, i 1, eq_ix2 i⟩
  rw [val_main_v44_apply, val_main_v43_apply, cell_eq,
    show val_main_v33 (F := Ideal) x0 x1 x12 x13 x14 = val_main_v11 (F := Ideal) x0 x1 x12 x13 x14 from rfl,
    sigmoid_eq, gate_eq]
  rfl

end Cert.ReferenceIdeal.RefCell

end
-- ==== Proof.Matmul.lean ====
/-
  The kernel body's two matrix products at an output index, on the extended reals: each goes into a zero accumulator, so its
  entry `(p, c)` is the sum over the contracted axis of the left operand's row `p` against the right operand's column `c`,
  with no rounding and no order of accumulation left in it.
-/
import proofs.«162020_j19009525252388_1_alg».proof.Proof.Gen.KernelIdeal
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## A block row against half of a gate's first factor: [128, 2048] × [2048, 512] -/

theorem first_lhs_0 (i : S128x512.Idx) (q : dot_S128x2048_S2048x512_S128x512_1_0_0_1_n_n.contr.Idx) :
    (dot_S128x2048_S2048x512_S128x512_1_0_0_1_n_n.lhsIdx i q 0).val = (i 0).val := by
  unfold DotDims.lhsIdx
  rw [dif_neg (show ¬(0 : Fin S128x2048.rank) ∈ dot_S128x2048_S2048x512_S128x512_1_0_0_1_n_n.lhsBatch by decide), dif_pos (show (0 : Fin S128x2048.rank) ∈ dot_S128x2048_S2048x512_S128x512_1_0_0_1_n_n.lhsNonContracting by decide)]
  rfl
theorem first_lhs_1 (i : S128x512.Idx) (q : dot_S128x2048_S2048x512_S128x512_1_0_0_1_n_n.contr.Idx) :
    (dot_S128x2048_S2048x512_S128x512_1_0_0_1_n_n.lhsIdx i q 1).val = (q ⟨0, by decide⟩).val :=
  dot_S128x2048_S2048x512_S128x512_1_0_0_1_n_n.lhsIdx_val_of_single rfl i q
theorem first_rhs_0 (i : S128x512.Idx) (q : dot_S128x2048_S2048x512_S128x512_1_0_0_1_n_n.contr.Idx) :
    (dot_S128x2048_S2048x512_S128x512_1_0_0_1_n_n.rhsIdx i q 0).val = (q ⟨0, by decide⟩).val :=
  dot_S128x2048_S2048x512_S128x512_1_0_0_1_n_n.rhsIdx_val_of_single rfl i q
theorem first_rhs_1 (i : S128x512.Idx) (q : dot_S128x2048_S2048x512_S128x512_1_0_0_1_n_n.contr.Idx) :
    (dot_S128x2048_S2048x512_S128x512_1_0_0_1_n_n.rhsIdx i q 1).val = (i 1).val := by
  unfold DotDims.rhsIdx
  rw [dif_neg (show ¬(1 : Fin S2048x512.rank) ∈ dot_S128x2048_S2048x512_S128x512_1_0_0_1_n_n.rhsBatch by decide), dif_pos (show (1 : Fin S2048x512.rank) ∈ dot_S128x2048_S2048x512_S128x512_1_0_0_1_n_n.rhsNonContracting by decide)]
  rfl

/-- Into a zero accumulator the product at `(p, c)` is the plain sum over the contracted axis of row `p` of the left operand
    against column `c` of the right one. -/
theorem first_apply {φ₁ φ₂ : FTy} (A : FVec Ideal S128x2048 φ₁) (B : FVec Ideal S2048x512 φ₂) (p : Fin 128) (c : Fin 512) :
    matmul dot_S128x2048_S2048x512_S128x512_1_0_0_1_n_n none A B (constant (F := Ideal) S128x512 .f32 0x00000000#32) (ix2 p c)
      = ∑ k : Fin 2048, A (ix2 p k) * B (ix2 k c) := by
  simp only [matmul]
  rw [Ideal.matmul_constant_zero_apply, ← Equiv.sum_comp (ValueIdx.contrEquiv1 dot_S128x2048_S2048x512_S128x512_1_0_0_1_n_n 2048 rfl rfl).symm]
  refine Finset.sum_congr rfl fun k _ => ?_
  have hk := ValueIdx.contrEquiv1_symm_val dot_S128x2048_S2048x512_S128x512_1_0_0_1_n_n 2048 rfl rfl k
  have el : dot_S128x2048_S2048x512_S128x512_1_0_0_1_n_n.lhsIdx (ix2 p c) ((ValueIdx.contrEquiv1 dot_S128x2048_S2048x512_S128x512_1_0_0_1_n_n 2048 rfl rfl).symm k) = ix2 p k := funext fun a => Fin.ext (by
    match a with
    | ⟨0, _⟩ => exact first_lhs_0 _ _
    | ⟨1, _⟩ => exact (first_lhs_1 _ _).trans hk)
  have er : dot_S128x2048_S2048x512_S128x512_1_0_0_1_n_n.rhsIdx (ix2 p c) ((ValueIdx.contrEquiv1 dot_S128x2048_S2048x512_S128x512_1_0_0_1_n_n 2048 rfl rfl).symm k) = ix2 k c := funext fun a => Fin.ext (by
    match a with
    | ⟨0, _⟩ => exact (first_rhs_0 _ _).trans hk
    | ⟨1, _⟩ => exact first_rhs_1 _ _)
  rw [el, er]

/-! ## The 512 intermediate results against a gate's second factor: [128, 512] × [512, 2048] -/

theorem second_lhs_0 (i : S128x2048.Idx) (q : dot_S128x512_S512x2048_S128x2048_1_0_0_1_n_n.contr.Idx) :
    (dot_S128x512_S512x2048_S128x2048_1_0_0_1_n_n.lhsIdx i q 0).val = (i 0).val := by
  unfold DotDims.lhsIdx
  rw [dif_neg (show ¬(0 : Fin S128x512.rank) ∈ dot_S128x512_S512x2048_S128x2048_1_0_0_1_n_n.lhsBatch by decide), dif_pos (show (0 : Fin S128x512.rank) ∈ dot_S128x512_S512x2048_S128x2048_1_0_0_1_n_n.lhsNonContracting by decide)]
  rfl
theorem second_lhs_1 (i : S128x2048.Idx) (q : dot_S128x512_S512x2048_S128x2048_1_0_0_1_n_n.contr.Idx) :
    (dot_S128x512_S512x2048_S128x2048_1_0_0_1_n_n.lhsIdx i q 1).val = (q ⟨0, by decide⟩).val :=
  dot_S128x512_S512x2048_S128x2048_1_0_0_1_n_n.lhsIdx_val_of_single rfl i q
theorem second_rhs_0 (i : S128x2048.Idx) (q : dot_S128x512_S512x2048_S128x2048_1_0_0_1_n_n.contr.Idx) :
    (dot_S128x512_S512x2048_S128x2048_1_0_0_1_n_n.rhsIdx i q 0).val = (q ⟨0, by decide⟩).val :=
  dot_S128x512_S512x2048_S128x2048_1_0_0_1_n_n.rhsIdx_val_of_single rfl i q
theorem second_rhs_1 (i : S128x2048.Idx) (q : dot_S128x512_S512x2048_S128x2048_1_0_0_1_n_n.contr.Idx) :
    (dot_S128x512_S512x2048_S128x2048_1_0_0_1_n_n.rhsIdx i q 1).val = (i 1).val := by
  unfold DotDims.rhsIdx
  rw [dif_neg (show ¬(1 : Fin S512x2048.rank) ∈ dot_S128x512_S512x2048_S128x2048_1_0_0_1_n_n.rhsBatch by decide), dif_pos (show (1 : Fin S512x2048.rank) ∈ dot_S128x512_S512x2048_S128x2048_1_0_0_1_n_n.rhsNonContracting by decide)]
  rfl

/-- Into a zero accumulator the product at `(p, c)` is the plain sum over the contracted axis of row `p` of the left operand
    against column `c` of the right one. -/
theorem second_apply {φ₁ φ₂ : FTy} (A : FVec Ideal S128x512 φ₁) (B : FVec Ideal S512x2048 φ₂) (p : Fin 128) (c : Fin 2048) :
    matmul dot_S128x512_S512x2048_S128x2048_1_0_0_1_n_n none A B (constant (F := Ideal) S128x2048 .f32 0x00000000#32) (ix2 p c)
      = ∑ k : Fin 512, A (ix2 p k) * B (ix2 k c) := by
  simp only [matmul]
  rw [Ideal.matmul_constant_zero_apply, ← Equiv.sum_comp (ValueIdx.contrEquiv1 dot_S128x512_S512x2048_S128x2048_1_0_0_1_n_n 512 rfl rfl).symm]
  refine Finset.sum_congr rfl fun k _ => ?_
  have hk := ValueIdx.contrEquiv1_symm_val dot_S128x512_S512x2048_S128x2048_1_0_0_1_n_n 512 rfl rfl k
  have el : dot_S128x512_S512x2048_S128x2048_1_0_0_1_n_n.lhsIdx (ix2 p c) ((ValueIdx.contrEquiv1 dot_S128x512_S512x2048_S128x2048_1_0_0_1_n_n 512 rfl rfl).symm k) = ix2 p k := funext fun a => Fin.ext (by
    match a with
    | ⟨0, _⟩ => exact second_lhs_0 _ _
    | ⟨1, _⟩ => exact (second_lhs_1 _ _).trans hk)
  have er : dot_S128x512_S512x2048_S128x2048_1_0_0_1_n_n.rhsIdx (ix2 p c) ((ValueIdx.contrEquiv1 dot_S128x512_S512x2048_S128x2048_1_0_0_1_n_n 512 rfl rfl).symm k) = ix2 k c := funext fun a => Fin.ext (by
    match a with
    | ⟨0, _⟩ => exact (second_rhs_0 _ _).trans hk
    | ⟨1, _⟩ => exact second_rhs_1 _ _)
  rw [el, er]

end Cert.KernelIdeal.Body

end
-- ==== Proof.Body.lean ====
/-
  What the kernel body computes at one entry of its batch tile, on the extended reals.

  The body holds a tile of 128 batch rows of `x`, `h`, `c` and, for each of the four gates, the top half `ux` and the bottom
  half `uh` of the gate's first factor, its second factor `v` and its bias as a 1 × 2048 row. Every gate is the same subterm:
  the tile of `x` against `ux` plus the tile of `h` against `uh` (two products into zero accumulators, added), that against `v`,
  plus the bias row broadcast down the tile. At entry `(p, q)` of the tile this is `Cert.Lstm.pre` of row `p` of the two tiles,
  the two halves, column `q` of `v` and entry `q` of the bias row. The changes of float format and the shape casts to the same
  shape are the identity here. The body stores `c' = σ(z_f) · c + σ(z_i) · tanh(z_c)` and `h' = σ(z_o) · tanh(c')`.
-/
import proofs.«162020_j19009525252388_1_alg».proof.Proof.Gen.KernelIdeal.Skeleton
import proofs.«162020_j19009525252388_1_alg».proof.Proof.Matmul
import proofs.«162020_j19009525252388_1_alg».proof.Proof.Cell
import Idealize.ShloMosaic.Lib.Pipeline.Value

noncomputable section

namespace Cert.KernelIdeal.Body

open Cert.KernelIdeal Cert.KernelIdeal.Gen Idealize.ShloMosaic Idealize.ShloMosaic.ValueIdx Cert.Lstm

/-! ## One gate over a tile -/

/-- A gate's pre-activation over the tile, as the body spells it: two products into zero accumulators, added; the result
    against the second factor; the bias row broadcast down the 128 rows. -/
def gateTile (xb hb : FVec Ideal S128x2048 .bf16) (ux uh : FVec Ideal S2048x512 .bf16) (v : FVec Ideal S512x2048 .bf16)
    (b : FVec Ideal S1x2048 .f32) : FVec Ideal S128x2048 .f32 :=
  addf (matmul dot_S128x512_S512x2048_S128x2048_1_0_0_1_n_n none
      (truncf .bf16 (addf (matmul dot_S128x2048_S2048x512_S128x512_1_0_0_1_n_n none xb ux (constant S128x512 .f32 0x00000000#32))
        (matmul dot_S128x2048_S2048x512_S128x512_1_0_0_1_n_n none hb uh (constant S128x512 .f32 0x00000000#32))) bitsLt_bf16_f32)
      v (constant S128x2048 .f32 0x00000000#32))
    (broadcastTo S128x2048 b broadcasts_S1x2048_S128x2048)

/-- The same at entry `(p, q)`, from row `p` of the tiles, the two halves, column `q` of `v` and entry `q` of the bias row. -/
def gateAt (xb hb : FVec Ideal S128x2048 .bf16) (ux uh : FVec Ideal S2048x512 .bf16) (v : FVec Ideal S512x2048 .bf16)
    (b : FVec Ideal S1x2048 .f32) (p : Fin 128) (q : Fin 2048) : EReal :=
  pre (fun k => xb (ix2 p k)) (fun k => hb (ix2 p k)) (fun k r => ux (ix2 k r)) (fun k r => uh (ix2 k r))
    (fun r => v (ix2 r q)) (b (ix2 (0 : Fin 1) q))

theorem gateTile_apply (xb hb : FVec Ideal S128x2048 .bf16) (ux uh : FVec Ideal S2048x512 .bf16) (v : FVec Ideal S512x2048 .bf16)
    (b : FVec Ideal S1x2048 .f32) (p : Fin 128) (q : Fin 2048) :
    gateTile xb hb ux uh v b (ix2 p q) = gateAt xb hb ux uh v b p q := by
  unfold gateTile gateAt pre
  show (matmul dot_S128x512_S512x2048_S128x2048_1_0_0_1_n_n none _ v (constant (F := Ideal) S128x2048 .f32 0x00000000#32)) (ix2 p q)
      + (broadcastTo S128x2048 b broadcasts_S1x2048_S128x2048) (ix2 p q) = _
  rw [second_apply, broadcastTo_apply b broadcasts_S1x2048_S128x2048 (ix2 p q) (ix2 (0 : Fin 1) q) (fun a => match a with
    | ⟨0, _⟩ => by show 0 = (if (1 : Nat) = 1 then 0 else p.val); rw [if_pos rfl]
    | ⟨1, _⟩ => by show q.val = (if (2048 : Nat) = 1 then 0 else q.val); rw [if_neg (by decide)])]
  congr 1
  refine Finset.sum_congr rfl fun r _ => ?_
  show ((matmul dot_S128x2048_S2048x512_S128x512_1_0_0_1_n_n none xb ux (constant (F := Ideal) S128x512 .f32 0x00000000#32)) (ix2 p r)
      + (matmul dot_S128x2048_S2048x512_S128x512_1_0_0_1_n_n none hb uh (constant (F := Ideal) S128x512 .f32 0x00000000#32)) (ix2 p r)) * v (ix2 r q) = _
  rw [first_apply, first_apply]

/-- A tile-level gate is the array-level gate at row `i`, column `j` as soon as the tile's row `p` of `x` and `h` is row `i` of the
    arrays, the two staged halves are the top and bottom halves of `U`, column `q` of the staged second factor is column `j` of
    `V`, and entry `q` of the staged bias row is entry `j` of the bias. -/
theorem gateAt_eq_gate (xb hb : FVec Ideal S128x2048 .bf16) (ux uh : FVec Ideal S2048x512 .bf16) (v : FVec Ideal S512x2048 .bf16)
    (b : FVec Ideal S1x2048 .f32) (x h : Mat 8192 2048) (U : Mat 4096 512) (V : Mat 512 2048) (bias : Row 2048)
    (p : Fin 128) (q : Fin 2048) (i : Fin 8192) (j : Fin 2048)
    (hx : ∀ k : Fin 2048, xb (ix2 p k) = x (ix2 i k)) (hh : ∀ k : Fin 2048, hb (ix2 p k) = h (ix2 i k))
    (hux : ∀ (k : Fin 2048) (r : Fin 512), ux (ix2 k r) = U (ix2 (⟨k.val, by omega⟩ : Fin 4096) r))
    (huh : ∀ (k : Fin 2048) (r : Fin 512), uh (ix2 k r) = U (ix2 (⟨2048 + k.val, by omega⟩ : Fin 4096) r))
    (hv : ∀ r : Fin 512, v (ix2 r q) = V (ix2 r j)) (hbias : b (ix2 (0 : Fin 1) q) = bias (ix1 j)) :
    gateAt xb hb ux uh v b p q = gate x h U V bias i j := by
  unfold gateAt gate
  simp only [hx, hh, hux, huh, hv, hbias]

/-! ## The two stored payloads -/

/-- The stored cell state is the cell formula over three gate subterms and the tile of `c`. -/
theorem cell_payload_eq (X0 X1 X2 : Vec Ideal S128x2048 .f32) (X3 X4 : Vec Ideal S2048x512 .bf16) (X5 : Vec Ideal S512x2048 .bf16)
    (X6 : Vec Ideal S1x2048 .f32) (X7 X8 : Vec Ideal S2048x512 .bf16) (X9 : Vec Ideal S512x2048 .bf16) (X10 : Vec Ideal S1x2048 .f32)
    (X11 X12 : Vec Ideal S2048x512 .bf16) (X13 : Vec Ideal S512x2048 .bf16) (X14 : Vec Ideal S1x2048 .f32) :
    k0_pay8 (F := Ideal) (k0_pay2 X0) (k0_pay3 X1) X2 (k0_pay4 X0 X1 X3 X4 X5 X6) (k0_pay5 X9) (k0_pay6 X10) (k0_pay7 X0 X1 X7 X8)
        X11 X12 X13 X14
      = addf (mulf (logistic (gateTile (truncf .bf16 X0 bitsLt_bf16_f32) (truncf .bf16 X1 bitsLt_bf16_f32) X7 X8 X9 X10)) X2)
          (mulf (logistic (gateTile (truncf .bf16 X0 bitsLt_bf16_f32) (truncf .bf16 X1 bitsLt_bf16_f32) X3 X4 X5 X6))
            (tanh (gateTile (truncf .bf16 X0 bitsLt_bf16_f32) (truncf .bf16 X1 bitsLt_bf16_f32) X11 X12 X13 X14))) := by
  unfold k0_pay8 k0_pay7 k0_pay6 k0_pay5 k0_pay4 k0_pay3 k0_pay2 gateTile
  simp only [shapeCast_self]

/-- At entry `(p, q)` of the tile it is `cNew` of the forget, input and candidate gates there and of `c` there. -/
theorem cell_payload_apply (X0 X1 X2 : Vec Ideal S128x2048 .f32) (X3 X4 : Vec Ideal S2048x512 .bf16) (X5 : Vec Ideal S512x2048 .bf16)
    (X6 : Vec Ideal S1x2048 .f32) (X7 X8 : Vec Ideal S2048x512 .bf16) (X9 : Vec Ideal S512x2048 .bf16) (X10 : Vec Ideal S1x2048 .f32)
    (X11 X12 : Vec Ideal S2048x512 .bf16) (X13 : Vec Ideal S512x2048 .bf16) (X14 : Vec Ideal S1x2048 .f32) (p : Fin 128) (q : Fin 2048) :
    k0_pay8 (F := Ideal) (k0_pay2 X0) (k0_pay3 X1) X2 (k0_pay4 X0 X1 X3 X4 X5 X6) (k0_pay5 X9) (k0_pay6 X10) (k0_pay7 X0 X1 X7 X8)
        X11 X12 X13 X14 (ix2 p q)
      = cNew (gateAt X0 X1 X7 X8 X9 X10 p q) (gateAt X0 X1 X3 X4 X5 X6 p q) (gateAt X0 X1 X11 X12 X13 X14 p q) (X2 (ix2 p q)) := by
  rw [cell_payload_eq]
  show Ideal.logistic (gateTile (truncf .bf16 X0 bitsLt_bf16_f32) (truncf .bf16 X1 bitsLt_bf16_f32) X7 X8 X9 X10 (ix2 p q)) * X2 (ix2 p q)
      + Ideal.logistic (gateTile (truncf .bf16 X0 bitsLt_bf16_f32) (truncf .bf16 X1 bitsLt_bf16_f32) X3 X4 X5 X6 (ix2 p q))
        * Ideal.tanh (gateTile (truncf .bf16 X0 bitsLt_bf16_f32) (truncf .bf16 X1 bitsLt_bf16_f32) X11 X12 X13 X14 (ix2 p q)) = _
  rw [gateTile_apply, gateTile_apply, gateTile_apply]
  rfl

/-- The stored hidden state is the output gate's sigmoid times `tanh` of the stored cell state. -/
theorem hidden_payload_eq (C : FVec Ideal S128x2048 .f32) (X0 X1 : Vec Ideal S128x2048 .f32) (X15 X16 : Vec Ideal S2048x512 .bf16)
    (X17 : Vec Ideal S512x2048 .bf16) (X18 : Vec Ideal S1x2048 .f32) :
    k0_pay1 (F := Ideal) C (k0_pay9 X18) (k0_pay10 (k0_pay2 X0) (k0_pay3 X1) X15 X16 X17)
      = mulf (logistic (gateTile (truncf .bf16 X0 bitsLt_bf16_f32) (truncf .bf16 X1 bitsLt_bf16_f32) X15 X16 X17 X18)) (tanh C) := by
  unfold k0_pay1 k0_pay10 k0_pay9 k0_pay3 k0_pay2 gateTile
  simp only [shapeCast_self]

/-- At entry `(p, q)` of the tile it is `hNew` of the output gate there and of the stored cell state there. -/
theorem hidden_payload_apply (C : FVec Ideal S128x2048 .f32) (X0 X1 : Vec Ideal S128x2048 .f32) (X15 X16 : Vec Ideal S2048x512 .bf16)
    (X17 : Vec Ideal S512x2048 .bf16) (X18 : Vec Ideal S1x2048 .f32) (p : Fin 128) (q : Fin 2048) :
    k0_pay1 (F := Ideal) C (k0_pay9 X18) (k0_pay10 (k0_pay2 X0) (k0_pay3 X1) X15 X16 X17) (ix2 p q)
      = hNew (gateAt X0 X1 X15 X16 X17 X18 p q) (C (ix2 p q)) := by
  rw [hidden_payload_eq]
  show Ideal.logistic (gateTile (truncf .bf16 X0 bitsLt_bf16_f32) (truncf .bf16 X1 bitsLt_bf16_f32) X15 X16 X17 X18 (ix2 p q))
      * Ideal.tanh (C (ix2 p q)) = _
  rw [gateTile_apply]
  rfl

end Cert.KernelIdeal.Body

end
-- ==== Proof.Reads.lean ====
/-
  What the tiles of `x`, `h` and `c` hold at a grid point, and the three ways an argument array reaches a weight window.

  The grid has 64 points; point `t` works on batch rows `128 t … 128 t + 127`. The windows of `x`, `h` and `c` move with the
  point: entry `(p, k)` of their tile is entry `(128 t + p, k)` of the array. A weight window stages an array that the
  operations before the kernel call wrote: the top half (rows 0 … 2047) or the bottom half (rows 2048 … 4095) of a gate's first
  factor, the gate's second factor, or the gate's bias as a 1 × 2048 row, each changed of float format, which changes nothing on
  the extended reals.
-/
import proofs.«162020_j19009525252388_1_alg».proof.Proof.Gen.KernelIdeal.Frame
import proofs.«162020_j19009525252388_1_alg».proof.Proof.Cell
import Idealize.ShloMosaic.Lib.Pipeline.Value

noncomputable section

namespace Cert.KernelIdeal.Tiles

open Cert.KernelIdeal Cert.KernelIdeal.Gen Idealize.ShloMosaic Idealize.ShloMosaic.TcCoe Idealize.SL.Sem
open Idealize.ShloMosaic.ValueIdx Cert.Lstm

variable (m : (ℓ : Loc nD τ sig) → Buf (Elt Ideal) ℓ)

/-! ## The three ways an argument reaches a weight window -/

/-- The top half of a 4096 × 512 array, changed of format: entry `(k, r)` is the array's entry `(k, r)`. -/
theorem top_half_apply (U : Mat 4096 512) (k : Fin 2048) (r : Fin 512) :
    (truncf (F := Ideal) .bf16 (extractStridedSlice S2048x512 ![0, 0] U slices_S4096x512_S2048x512_0_0) bitsLt_bf16_f32 : FVec Ideal S2048x512 .bf16) (ix2 k r)
      = U (ix2 (⟨k.val, by omega⟩ : Fin 4096) r) := by
  show extractStridedSlice S2048x512 ![0, 0] U slices_S4096x512_S2048x512_0_0 (ix2 k r) = _
  exact extractStridedSlice_apply _ U _ (ix2 k r) (ix2 (⟨k.val, by omega⟩ : Fin 4096) r) (fun a => match a with
    | ⟨0, _⟩ => by show k.val = 0 + k.val; omega
    | ⟨1, _⟩ => by show r.val = 0 + r.val; omega)

/-- The bottom half: entry `(k, r)` is the array's entry `(2048 + k, r)`. -/
theorem bottom_half_apply (U : Mat 4096 512) (k : Fin 2048) (r : Fin 512) :
    (truncf (F := Ideal) .bf16 (extractStridedSlice S2048x512 ![2048, 0] U slices_S4096x512_S2048x512_2048_0) bitsLt_bf16_f32 : FVec Ideal S2048x512 .bf16) (ix2 k r)
      = U (ix2 (⟨2048 + k.val, by omega⟩ : Fin 4096) r) := by
  show extractStridedSlice S2048x512 ![2048, 0] U slices_S4096x512_S2048x512_2048_0 (ix2 k r) = _
  exact extractStridedSlice_apply _ U _ (ix2 k r) (ix2 (⟨2048 + k.val, by omega⟩ : Fin 4096) r) (fun a => match a with
    | ⟨0, _⟩ => by show 2048 + k.val = 2048 + k.val; rfl
    | ⟨1, _⟩ => by show r.val = 0 + r.val; omega)

/-- A length-2048 vector as a 1 × 2048 row: entry `(0, q)` is the vector's entry `q`. -/
theorem as_row_apply (b : Row 2048) (q : Fin 2048) :
    shapeCast S1x2048 b shapeCasts_S2048_S1x2048 (ix2 (0 : Fin 1) q) = b (ix1 q) := by
  refine shapeCast_apply b shapeCasts_S2048_S1x2048 (ix2 (0 : Fin 1) q) (ix1 q) ?_
  rw [Shape.rowMajor_val_one, Shape.rowMajor_val_two]
  show q.val = 0 * 2048 + q.val
  omega

/-! ## The tiles of `x`, `h` and `c` -/

/-- The batch row that entry `p` of point `t`'s tile is. -/
def rowOf (t : Fin cfg0.N) (p : Fin 128) : Fin 8192 :=
  ⟨t.val * 128 + p.val, by have h : t.val < 64 := lt_of_lt_of_eq t.isLt N_0; have := p.isLt; omega⟩

/-- The window of `x` sits at block `(t, 0)` at point `t`. -/
theorem idx0 : ∀ t : Fin cfg0.N, win0_0.index t (0 : Fin 2) = t.val ∧ win0_0.index t (1 : Fin 2) = 0 :=
  (by decide +kernel : ∀ t : Fin grid0.N, _)
/-- So does the window of `h`. -/
theorem idx1 : ∀ t : Fin cfg0.N, win0_1.index t (0 : Fin 2) = t.val ∧ win0_1.index t (1 : Fin 2) = 0 :=
  (by decide +kernel : ∀ t : Fin grid0.N, _)
/-- And the window of `c`. -/
theorem idx2 : ∀ t : Fin cfg0.N, win0_2.index t (0 : Fin 2) = t.val ∧ win0_2.index t (1 : Fin 2) = 0 :=
  (by decide +kernel : ∀ t : Fin grid0.N, _)

theorem blk0_apply (c : Dev nD) (t : Fin cfg0.N) (p : Fin 128) (k : Fin 2048) :
    (iblk m c 0 t : S128x2048.Idx → EReal) (ix2 p k) = (m ((c : Thread nD τ).loc main_arg0)) (ix2 (rowOf t p) k) := by
  show V m c main_arg0 (((cfg0.win 0).blk t).view.emb (ix2 p k)) = _
  rw [V_main_arg0]
  refine congrArg _ (funext fun a => Fin.ext ?_)
  obtain ⟨e0, e1⟩ := idx0 t
  match a with
  | ⟨0, _⟩ => show win0_0.index t (0 : Fin 2) * 128 + 1 * p.val = t.val * 128 + p.val; omega
  | ⟨1, _⟩ => show win0_0.index t (1 : Fin 2) * 2048 + 1 * k.val = k.val; omega

theorem blk1_apply (c : Dev nD) (t : Fin cfg0.N) (p : Fin 128) (k : Fin 2048) :
    (iblk m c 1 t : S128x2048.Idx → EReal) (ix2 p k) = (m ((c : Thread nD τ).loc main_arg1)) (ix2 (rowOf t p) k) := by
  show V m c main_arg1 (((cfg0.win 1).blk t).view.emb (ix2 p k)) = _
  rw [V_main_arg1]
  refine congrArg _ (funext fun a => Fin.ext ?_)
  obtain ⟨e0, e1⟩ := idx1 t
  match a with
  | ⟨0, _⟩ => show win0_1.index t (0 : Fin 2) * 128 + 1 * p.val = t.val * 128 + p.val; omega
  | ⟨1, _⟩ => show win0_1.index t (1 : Fin 2) * 2048 + 1 * k.val = k.val; omega

theorem blk2_apply (c : Dev nD) (t : Fin cfg0.N) (p : Fin 128) (k : Fin 2048) :
    (iblk m c 2 t : S128x2048.Idx → EReal) (ix2 p k) = (m ((c : Thread nD τ).loc main_arg2)) (ix2 (rowOf t p) k) := by
  show V m c main_arg2 (((cfg0.win 2).blk t).view.emb (ix2 p k)) = _
  rw [V_main_arg2]
  refine congrArg _ (funext fun a => Fin.ext ?_)
  obtain ⟨e0, e1⟩ := idx2 t
  match a with
  | ⟨0, _⟩ => show win0_2.index t (0 : Fin 2) * 128 + 1 * p.val = t.val * 128 + p.val; omega
  | ⟨1, _⟩ => show win0_2.index t (1 : Fin 2) * 2048 + 1 * k.val = k.val; omega

end Cert.KernelIdeal.Tiles

end
-- ==== Proof.WeightReads.lean ====
/-
  What each weight window's tile holds at a grid point, in terms of the program's argument arrays.

  Every weight window sits at block `(0, 0)` at every grid point and its block is its whole array, so the tile IS the array the
  window stages. That array is written by the operations before the kernel call from one argument: for each of the four gates
  (input, forget, candidate, output, in the order of the windows) the top half and the bottom half of the gate's first factor,
  its second factor, and its bias as a 1 × 2048 row.
-/
import proofs.«162020_j19009525252388_1_alg».proof.Proof.Reads
import Idealize.ShloMosaic.Lib.StableHlo.Run

noncomputable section

namespace Cert.KernelIdeal.Tiles

open Cert.KernelIdeal Cert.KernelIdeal.Gen Idealize.ShloMosaic Idealize.ShloMosaic.TcCoe Idealize.SL.Sem Idealize.ShloMosaic.StableHlo
open Idealize.ShloMosaic.ValueIdx Cert.Lstm

variable (m : (ℓ : Loc nD τ sig) → Buf (Elt Ideal) ℓ)

/-! ## The input gate's windows (3 to 6) -/

/-- The array window 3 stages: the top half of `main_arg3`, changed of format. -/
theorem main_v1_eq (c : Dev nD) : (V m c main_v1 : S2048x512.Idx → EReal)
    = (truncf (F := Ideal) .bf16 (extractStridedSlice S2048x512 ![0, 0] (m ((c : Thread nD τ).loc main_arg3)) slices_S4096x512_S2048x512_0_0) bitsLt_bf16_f32 : FVec Ideal S2048x512 .bf16) := by
  dsimp only [Gen.V, Gen.hostOps0]; after_results

/-- Window 3 sits at block `(0, 0)` at every point. -/
theorem idx3 : ∀ t : Fin cfg0.N, win0_3.index t (0 : Fin 2) = 0 ∧ win0_3.index t (1 : Fin 2) = 0 :=
  (by decide +kernel : ∀ t : Fin grid0.N, _)

/-- So its tile is its whole array. -/
theorem blk3_whole (c : Dev nD) (t : Fin cfg0.N) (y : S2048x512.Idx) : (iblk m c 3 t : S2048x512.Idx → EReal) y = (V m c main_v1 : S2048x512.Idx → EReal) y := by
  show V m c main_v1 (((cfg0.win 3).blk t).view.emb y) = _
  refine congrArg _ (funext fun a => Fin.ext ?_)
  obtain ⟨e0, e1⟩ := idx3 t
  match a with
  | ⟨0, _⟩ => show win0_3.index t (0 : Fin 2) * 2048 + 1 * (y 0).val = (y 0).val; omega
  | ⟨1, _⟩ => show win0_3.index t (1 : Fin 2) * 512 + 1 * (y 1).val = (y 1).val; omega

/-- Entry `(k, r)` of window 3's tile is entry `(k, r)` of `main_arg3`. -/
theorem blk3_apply (c : Dev nD) (t : Fin cfg0.N) (k : Fin 2048) (r : Fin 512) :
    (iblk m c 3 t : S2048x512.Idx → EReal) (ix2 k r) = (m ((c : Thread nD τ).loc main_arg3)) (ix2 (⟨k.val, by omega⟩ : Fin 4096) r) := by
  rw [blk3_whole, main_v1_eq]; exact top_half_apply _ k r

/-- The array window 4 stages: the bottom half of `main_arg3`, changed of format. -/
theorem main_v3_eq (c : Dev nD) : (V m c main_v3 : S2048x512.Idx → EReal)
    = (truncf (F := Ideal) .bf16 (extractStridedSlice S2048x512 ![2048, 0] (m ((c : Thread nD τ).loc main_arg3)) slices_S4096x512_S2048x512_2048_0) bitsLt_bf16_f32 : FVec Ideal S2048x512 .bf16) := by
  dsimp only [Gen.V, Gen.hostOps0]; after_results

/-- Window 4 sits at block `(0, 0)` at every point. -/
theorem idx4 : ∀ t : Fin cfg0.N, win0_4.index t (0 : Fin 2) = 0 ∧ win0_4.index t (1 : Fin 2) = 0 :=
  (by decide +kernel : ∀ t : Fin grid0.N, _)

/-- So its tile is its whole array. -/
theorem blk4_whole (c : Dev nD) (t : Fin cfg0.N) (y : S2048x512.Idx) : (iblk m c 4 t : S2048x512.Idx → EReal) y = (V m c main_v3 : S2048x512.Idx → EReal) y := by
  show V m c main_v3 (((cfg0.win 4).blk t).view.emb y) = _
  refine congrArg _ (funext fun a => Fin.ext ?_)
  obtain ⟨e0, e1⟩ := idx4 t
  match a with
  | ⟨0, _⟩ => show win0_4.index t (0 : Fin 2) * 2048 + 1 * (y 0).val = (y 0).val; omega
  | ⟨1, _⟩ => show win0_4.index t (1 : Fin 2) * 512 + 1 * (y 1).val = (y 1).val; omega

/-- Entry `(k, r)` of window 4's tile is entry `(2048 + k, r)` of `main_arg3`. -/
theorem blk4_apply (c : Dev nD) (t : Fin cfg0.N) (k : Fin 2048) (r : Fin 512) :
    (iblk m c 4 t : S2048x512.Idx → EReal) (ix2 k r) = (m ((c : Thread nD τ).loc main_arg3)) (ix2 (⟨2048 + k.val, by omega⟩ : Fin 4096) r) := by
  rw [blk4_whole, main_v3_eq]; exact bottom_half_apply _ k r

/-- The array window 5 stages: `main_arg4`, changed of format. -/
theorem main_v16_eq (c : Dev nD) : (V m c main_v16 : S512x2048.Idx → EReal)
    = (truncf (F := Ideal) .bf16 (m ((c : Thread nD τ).loc main_arg4)) bitsLt_bf16_f32 : FVec Ideal S512x2048 .bf16) := by
  dsimp only [Gen.V, Gen.hostOps0]; after_results

/-- Window 5 sits at block `(0, 0)` at every point. -/
theorem idx5 : ∀ t : Fin cfg0.N, win0_5.index t (0 : Fin 2) = 0 ∧ win0_5.index t (1 : Fin 2) = 0 :=
  (by decide +kernel : ∀ t : Fin grid0.N, _)

/-- So its tile is its whole array. -/
theorem blk5_whole (c : Dev nD) (t : Fin cfg0.N) (y : S512x2048.Idx) : (iblk m c 5 t : S512x2048.Idx → EReal) y = (V m c main_v16 : S512x2048.Idx → EReal) y := by
  show V m c main_v16 (((cfg0.win 5).blk t).view.emb y) = _
  refine congrArg _ (funext fun a => Fin.ext ?_)
  obtain ⟨e0, e1⟩ := idx5 t
  match a with
  | ⟨0, _⟩ => show win0_5.index t (0 : Fin 2) * 512 + 1 * (y 0).val = (y 0).val; omega
  | ⟨1, _⟩ => show win0_5.index t (1 : Fin 2) * 2048 + 1 * (y 1).val = (y 1).val; omega

/-- Entry `(r, q)` of window 5's tile is entry `(r, q)` of `main_arg4`. -/
theorem blk5_apply (c : Dev nD) (t : Fin cfg0.N) (r : Fin 512) (q : Fin 2048) :
    (iblk m c 5 t : S512x2048.Idx → EReal) (ix2 r q) = (m ((c : Thread nD τ).loc main_arg4)) (ix2 r q) := by
  rw [blk5_whole, main_v16_eq]; rfl

/-- The array window 6 stages: `main_arg5` as a 1 × 2048 row. -/
theorem main_v20_eq (c : Dev nD) : (V m c main_v20 : S1x2048.Idx → EReal) = shapeCast S1x2048 (m ((c : Thread nD τ).loc main_arg5)) shapeCasts_S2048_S1x2048 := by
  dsimp only [Gen.V, Gen.hostOps0]; after_results; rfl

/-- Window 6 sits at block `(0, 0)` at every point. -/
theorem idx6 : ∀ t : Fin cfg0.N, win0_6.index t (0 : Fin 2) = 0 ∧ win0_6.index t (1 : Fin 2) = 0 :=
  (by decide +kernel : ∀ t : Fin grid0.N, _)

/-- So its tile is its whole array. -/
theorem blk6_whole (c : Dev nD) (t : Fin cfg0.N) (y : S1x2048.Idx) : (iblk m c 6 t : S1x2048.Idx → EReal) y = (V m c main_v20 : S1x2048.Idx → EReal) y := by
  show V m c main_v20 (((cfg0.win 6).blk t).view.emb y) = _
  refine congrArg _ (funext fun a => Fin.ext ?_)
  obtain ⟨e0, e1⟩ := idx6 t
  match a with
  | ⟨0, _⟩ => show win0_6.index t (0 : Fin 2) * 1 + 1 * (y 0).val = (y 0).val; omega
  | ⟨1, _⟩ => show win0_6.index t (1 : Fin 2) * 2048 + 1 * (y 1).val = (y 1).val; omega

/-- Entry `(0, q)` of window 6's tile is entry `q` of `main_arg5`. -/
theorem blk6_apply (c : Dev nD) (t : Fin cfg0.N) (q : Fin 2048) :
    (iblk m c 6 t : S1x2048.Idx → EReal) (ix2 (0 : Fin 1) q) = (m ((c : Thread nD τ).loc main_arg5)) (ix1 q) := by
  rw [blk6_whole, main_v20_eq]; exact as_row_apply _ q

/-! ## The forget gate's windows (7 to 10) -/

/-- The array window 7 stages: the top half of `main_arg6`, changed of format. -/
theorem main_v5_eq (c : Dev nD) : (V m c main_v5 : S2048x512.Idx → EReal)
    = (truncf (F := Ideal) .bf16 (extractStridedSlice S2048x512 ![0, 0] (m ((c : Thread nD τ).loc main_arg6)) slices_S4096x512_S2048x512_0_0) bitsLt_bf16_f32 : FVec Ideal S2048x512 .bf16) := by
  dsimp only [Gen.V, Gen.hostOps0]; after_results

/-- Window 7 sits at block `(0, 0)` at every point. -/
theorem idx7 : ∀ t : Fin cfg0.N, win0_7.index t (0 : Fin 2) = 0 ∧ win0_7.index t (1 : Fin 2) = 0 :=
  (by decide +kernel : ∀ t : Fin grid0.N, _)

/-- So its tile is its whole array. -/
theorem blk7_whole (c : Dev nD) (t : Fin cfg0.N) (y : S2048x512.Idx) : (iblk m c 7 t : S2048x512.Idx → EReal) y = (V m c main_v5 : S2048x512.Idx → EReal) y := by
  show V m c main_v5 (((cfg0.win 7).blk t).view.emb y) = _
  refine congrArg _ (funext fun a => Fin.ext ?_)
  obtain ⟨e0, e1⟩ := idx7 t
  match a with
  | ⟨0, _⟩ => show win0_7.index t (0 : Fin 2) * 2048 + 1 * (y 0).val = (y 0).val; omega
  | ⟨1, _⟩ => show win0_7.index t (1 : Fin 2) * 512 + 1 * (y 1).val = (y 1).val; omega

/-- Entry `(k, r)` of window 7's tile is entry `(k, r)` of `main_arg6`. -/
theorem blk7_apply (c : Dev nD) (t : Fin cfg0.N) (k : Fin 2048) (r : Fin 512) :
    (iblk m c 7 t : S2048x512.Idx → EReal) (ix2 k r) = (m ((c : Thread nD τ).loc main_arg6)) (ix2 (⟨k.val, by omega⟩ : Fin 4096) r) := by
  rw [blk7_whole, main_v5_eq]; exact top_half_apply _ k r

/-- The array window 8 stages: the bottom half of `main_arg6`, changed of format. -/
theorem main_v7_eq (c : Dev nD) : (V m c main_v7 : S2048x512.Idx → EReal)
    = (truncf (F := Ideal) .bf16 (extractStridedSlice S2048x512 ![2048, 0] (m ((c : Thread nD τ).loc main_arg6)) slices_S4096x512_S2048x512_2048_0) bitsLt_bf16_f32 : FVec Ideal S2048x512 .bf16) := by
  dsimp only [Gen.V, Gen.hostOps0]; after_results

/-- Window 8 sits at block `(0, 0)` at every point. -/
theorem idx8 : ∀ t : Fin cfg0.N, win0_8.index t (0 : Fin 2) = 0 ∧ win0_8.index t (1 : Fin 2) = 0 :=
  (by decide +kernel : ∀ t : Fin grid0.N, _)

/-- So its tile is its whole array. -/
theorem blk8_whole (c : Dev nD) (t : Fin cfg0.N) (y : S2048x512.Idx) : (iblk m c 8 t : S2048x512.Idx → EReal) y = (V m c main_v7 : S2048x512.Idx → EReal) y := by
  show V m c main_v7 (((cfg0.win 8).blk t).view.emb y) = _
  refine congrArg _ (funext fun a => Fin.ext ?_)
  obtain ⟨e0, e1⟩ := idx8 t
  match a with
  | ⟨0, _⟩ => show win0_8.index t (0 : Fin 2) * 2048 + 1 * (y 0).val = (y 0).val; omega
  | ⟨1, _⟩ => show win0_8.index t (1 : Fin 2) * 512 + 1 * (y 1).val = (y 1).val; omega

/-- Entry `(k, r)` of window 8's tile is entry `(2048 + k, r)` of `main_arg6`. -/
theorem blk8_apply (c : Dev nD) (t : Fin cfg0.N) (k : Fin 2048) (r : Fin 512) :
    (iblk m c 8 t : S2048x512.Idx → EReal) (ix2 k r) = (m ((c : Thread nD τ).loc main_arg6)) (ix2 (⟨2048 + k.val, by omega⟩ : Fin 4096) r) := by
  rw [blk8_whole, main_v7_eq]; exact bottom_half_apply _ k r

/-- The array window 9 stages: `main_arg7`, changed of format. -/
theorem main_v17_eq (c : Dev nD) : (V m c main_v17 : S512x2048.Idx → EReal)
    = (truncf (F := Ideal) .bf16 (m ((c : Thread nD τ).loc main_arg7)) bitsLt_bf16_f32 : FVec Ideal S512x2048 .bf16) := by
  dsimp only [Gen.V, Gen.hostOps0]; after_results

/-- Window 9 sits at block `(0, 0)` at every point. -/
theorem idx9 : ∀ t : Fin cfg0.N, win0_9.index t (0 : Fin 2) = 0 ∧ win0_9.index t (1 : Fin 2) = 0 :=
  (by decide +kernel : ∀ t : Fin grid0.N, _)

/-- So its tile is its whole array. -/
theorem blk9_whole (c : Dev nD) (t : Fin cfg0.N) (y : S512x2048.Idx) : (iblk m c 9 t : S512x2048.Idx → EReal) y = (V m c main_v17 : S512x2048.Idx → EReal) y := by
  show V m c main_v17 (((cfg0.win 9).blk t).view.emb y) = _
  refine congrArg _ (funext fun a => Fin.ext ?_)
  obtain ⟨e0, e1⟩ := idx9 t
  match a with
  | ⟨0, _⟩ => show win0_9.index t (0 : Fin 2) * 512 + 1 * (y 0).val = (y 0).val; omega
  | ⟨1, _⟩ => show win0_9.index t (1 : Fin 2) * 2048 + 1 * (y 1).val = (y 1).val; omega

/-- Entry `(r, q)` of window 9's tile is entry `(r, q)` of `main_arg7`. -/
theorem blk9_apply (c : Dev nD) (t : Fin cfg0.N) (r : Fin 512) (q : Fin 2048) :
    (iblk m c 9 t : S512x2048.Idx → EReal) (ix2 r q) = (m ((c : Thread nD τ).loc main_arg7)) (ix2 r q) := by
  rw [blk9_whole, main_v17_eq]; rfl

/-- The array window 10 stages: `main_arg8` as a 1 × 2048 row. -/
theorem main_v21_eq (c : Dev nD) : (V m c main_v21 : S1x2048.Idx → EReal) = shapeCast S1x2048 (m ((c : Thread nD τ).loc main_arg8)) shapeCasts_S2048_S1x2048 := by
  dsimp only [Gen.V, Gen.hostOps0]; after_results; rfl

/-- Window 10 sits at block `(0, 0)` at every point. -/
theorem idx10 : ∀ t : Fin cfg0.N, win0_10.index t (0 : Fin 2) = 0 ∧ win0_10.index t (1 : Fin 2) = 0 :=
  (by decide +kernel : ∀ t : Fin grid0.N, _)

/-- So its tile is its whole array. -/
theorem blk10_whole (c : Dev nD) (t : Fin cfg0.N) (y : S1x2048.Idx) : (iblk m c 10 t : S1x2048.Idx → EReal) y = (V m c main_v21 : S1x2048.Idx → EReal) y := by
  show V m c main_v21 (((cfg0.win 10).blk t).view.emb y) = _
  refine congrArg _ (funext fun a => Fin.ext ?_)
  obtain ⟨e0, e1⟩ := idx10 t
  match a with
  | ⟨0, _⟩ => show win0_10.index t (0 : Fin 2) * 1 + 1 * (y 0).val = (y 0).val; omega
  | ⟨1, _⟩ => show win0_10.index t (1 : Fin 2) * 2048 + 1 * (y 1).val = (y 1).val; omega

/-- Entry `(0, q)` of window 10's tile is entry `q` of `main_arg8`. -/
theorem blk10_apply (c : Dev nD) (t : Fin cfg0.N) (q : Fin 2048) :
    (iblk m c 10 t : S1x2048.Idx → EReal) (ix2 (0 : Fin 1) q) = (m ((c : Thread nD τ).loc main_arg8)) (ix1 q) := by
  rw [blk10_whole, main_v21_eq]; exact as_row_apply _ q

/-! ## The candidate gate's windows (11 to 14) -/

/-- The array window 11 stages: the top half of `main_arg9`, changed of format. -/
theorem main_v9_eq (c : Dev nD) : (V m c main_v9 : S2048x512.Idx → EReal)
    = (truncf (F := Ideal) .bf16 (extractStridedSlice S2048x512 ![0, 0] (m ((c : Thread nD τ).loc main_arg9)) slices_S4096x512_S2048x512_0_0) bitsLt_bf16_f32 : FVec Ideal S2048x512 .bf16) := by
  dsimp only [Gen.V, Gen.hostOps0]; after_results

/-- Window 11 sits at block `(0, 0)` at every point. -/
theorem idx11 : ∀ t : Fin cfg0.N, win0_11.index t (0 : Fin 2) = 0 ∧ win0_11.index t (1 : Fin 2) = 0 :=
  (by decide +kernel : ∀ t : Fin grid0.N, _)

/-- So its tile is its whole array. -/
theorem blk11_whole (c : Dev nD) (t : Fin cfg0.N) (y : S2048x512.Idx) : (iblk m c 11 t : S2048x512.Idx → EReal) y = (V m c main_v9 : S2048x512.Idx → EReal) y := by
  show V m c main_v9 (((cfg0.win 11).blk t).view.emb y) = _
  refine congrArg _ (funext fun a => Fin.ext ?_)
  obtain ⟨e0, e1⟩ := idx11 t
  match a with
  | ⟨0, _⟩ => show win0_11.index t (0 : Fin 2) * 2048 + 1 * (y 0).val = (y 0).val; omega
  | ⟨1, _⟩ => show win0_11.index t (1 : Fin 2) * 512 + 1 * (y 1).val = (y 1).val; omega

/-- Entry `(k, r)` of window 11's tile is entry `(k, r)` of `main_arg9`. -/
theorem blk11_apply (c : Dev nD) (t : Fin cfg0.N) (k : Fin 2048) (r : Fin 512) :
    (iblk m c 11 t : S2048x512.Idx → EReal) (ix2 k r) = (m ((c : Thread nD τ).loc main_arg9)) (ix2 (⟨k.val, by omega⟩ : Fin 4096) r) := by
  rw [blk11_whole, main_v9_eq]; exact top_half_apply _ k r

/-- The array window 12 stages: the bottom half of `main_arg9`, changed of format. -/
theorem main_v11_eq (c : Dev nD) : (V m c main_v11 : S2048x512.Idx → EReal)
    = (truncf (F := Ideal) .bf16 (extractStridedSlice S2048x512 ![2048, 0] (m ((c : Thread nD τ).loc main_arg9)) slices_S4096x512_S2048x512_2048_0) bitsLt_bf16_f32 : FVec Ideal S2048x512 .bf16) := by
  dsimp only [Gen.V, Gen.hostOps0]; after_results

/-- Window 12 sits at block `(0, 0)` at every point. -/
theorem idx12 : ∀ t : Fin cfg0.N, win0_12.index t (0 : Fin 2) = 0 ∧ win0_12.index t (1 : Fin 2) = 0 :=
  (by decide +kernel : ∀ t : Fin grid0.N, _)

/-- So its tile is its whole array. -/
theorem blk12_whole (c : Dev nD) (t : Fin cfg0.N) (y : S2048x512.Idx) : (iblk m c 12 t : S2048x512.Idx → EReal) y = (V m c main_v11 : S2048x512.Idx → EReal) y := by
  show V m c main_v11 (((cfg0.win 12).blk t).view.emb y) = _
  refine congrArg _ (funext fun a => Fin.ext ?_)
  obtain ⟨e0, e1⟩ := idx12 t
  match a with
  | ⟨0, _⟩ => show win0_12.index t (0 : Fin 2) * 2048 + 1 * (y 0).val = (y 0).val; omega
  | ⟨1, _⟩ => show win0_12.index t (1 : Fin 2) * 512 + 1 * (y 1).val = (y 1).val; omega

/-- Entry `(k, r)` of window 12's tile is entry `(2048 + k, r)` of `main_arg9`. -/
theorem blk12_apply (c : Dev nD) (t : Fin cfg0.N) (k : Fin 2048) (r : Fin 512) :
    (iblk m c 12 t : S2048x512.Idx → EReal) (ix2 k r) = (m ((c : Thread nD τ).loc main_arg9)) (ix2 (⟨2048 + k.val, by omega⟩ : Fin 4096) r) := by
  rw [blk12_whole, main_v11_eq]; exact bottom_half_apply _ k r

/-- The array window 13 stages: `main_arg10`, changed of format. -/
theorem main_v18_eq (c : Dev nD) : (V m c main_v18 : S512x2048.Idx → EReal)
    = (truncf (F := Ideal) .bf16 (m ((c : Thread nD τ).loc main_arg10)) bitsLt_bf16_f32 : FVec Ideal S512x2048 .bf16) := by
  dsimp only [Gen.V, Gen.hostOps0]; after_results

/-- Window 13 sits at block `(0, 0)` at every point. -/
theorem idx13 : ∀ t : Fin cfg0.N, win0_13.index t (0 : Fin 2) = 0 ∧ win0_13.index t (1 : Fin 2) = 0 :=
  (by decide +kernel : ∀ t : Fin grid0.N, _)

/-- So its tile is its whole array. -/
theorem blk13_whole (c : Dev nD) (t : Fin cfg0.N) (y : S512x2048.Idx) : (iblk m c 13 t : S512x2048.Idx → EReal) y = (V m c main_v18 : S512x2048.Idx → EReal) y := by
  show V m c main_v18 (((cfg0.win 13).blk t).view.emb y) = _
  refine congrArg _ (funext fun a => Fin.ext ?_)
  obtain ⟨e0, e1⟩ := idx13 t
  match a with
  | ⟨0, _⟩ => show win0_13.index t (0 : Fin 2) * 512 + 1 * (y 0).val = (y 0).val; omega
  | ⟨1, _⟩ => show win0_13.index t (1 : Fin 2) * 2048 + 1 * (y 1).val = (y 1).val; omega

/-- Entry `(r, q)` of window 13's tile is entry `(r, q)` of `main_arg10`. -/
theorem blk13_apply (c : Dev nD) (t : Fin cfg0.N) (r : Fin 512) (q : Fin 2048) :
    (iblk m c 13 t : S512x2048.Idx → EReal) (ix2 r q) = (m ((c : Thread nD τ).loc main_arg10)) (ix2 r q) := by
  rw [blk13_whole, main_v18_eq]; rfl

/-- The array window 14 stages: `main_arg11` as a 1 × 2048 row. -/
theorem main_v22_eq (c : Dev nD) : (V m c main_v22 : S1x2048.Idx → EReal) = shapeCast S1x2048 (m ((c : Thread nD τ).loc main_arg11)) shapeCasts_S2048_S1x2048 := by
  dsimp only [Gen.V, Gen.hostOps0]; after_results; rfl

/-- Window 14 sits at block `(0, 0)` at every point. -/
theorem idx14 : ∀ t : Fin cfg0.N, win0_14.index t (0 : Fin 2) = 0 ∧ win0_14.index t (1 : Fin 2) = 0 :=
  (by decide +kernel : ∀ t : Fin grid0.N, _)

/-- So its tile is its whole array. -/
theorem blk14_whole (c : Dev nD) (t : Fin cfg0.N) (y : S1x2048.Idx) : (iblk m c 14 t : S1x2048.Idx → EReal) y = (V m c main_v22 : S1x2048.Idx → EReal) y := by
  show V m c main_v22 (((cfg0.win 14).blk t).view.emb y) = _
  refine congrArg _ (funext fun a => Fin.ext ?_)
  obtain ⟨e0, e1⟩ := idx14 t
  match a with
  | ⟨0, _⟩ => show win0_14.index t (0 : Fin 2) * 1 + 1 * (y 0).val = (y 0).val; omega
  | ⟨1, _⟩ => show win0_14.index t (1 : Fin 2) * 2048 + 1 * (y 1).val = (y 1).val; omega

/-- Entry `(0, q)` of window 14's tile is entry `q` of `main_arg11`. -/
theorem blk14_apply (c : Dev nD) (t : Fin cfg0.N) (q : Fin 2048) :
    (iblk m c 14 t : S1x2048.Idx → EReal) (ix2 (0 : Fin 1) q) = (m ((c : Thread nD τ).loc main_arg11)) (ix1 q) := by
  rw [blk14_whole, main_v22_eq]; exact as_row_apply _ q

/-! ## The output gate's windows (15 to 18) -/

/-- The array window 15 stages: the top half of `main_arg12`, changed of format. -/
theorem main_v13_eq (c : Dev nD) : (V m c main_v13 : S2048x512.Idx → EReal)
    = (truncf (F := Ideal) .bf16 (extractStridedSlice S2048x512 ![0, 0] (m ((c : Thread nD τ).loc main_arg12)) slices_S4096x512_S2048x512_0_0) bitsLt_bf16_f32 : FVec Ideal S2048x512 .bf16) := by
  dsimp only [Gen.V, Gen.hostOps0]; after_results

/-- Window 15 sits at block `(0, 0)` at every point. -/
theorem idx15 : ∀ t : Fin cfg0.N, win0_15.index t (0 : Fin 2) = 0 ∧ win0_15.index t (1 : Fin 2) = 0 :=
  (by decide +kernel : ∀ t : Fin grid0.N, _)

/-- So its tile is its whole array. -/
theorem blk15_whole (c : Dev nD) (t : Fin cfg0.N) (y : S2048x512.Idx) : (iblk m c 15 t : S2048x512.Idx → EReal) y = (V m c main_v13 : S2048x512.Idx → EReal) y := by
  show V m c main_v13 (((cfg0.win 15).blk t).view.emb y) = _
  refine congrArg _ (funext fun a => Fin.ext ?_)
  obtain ⟨e0, e1⟩ := idx15 t
  match a with
  | ⟨0, _⟩ => show win0_15.index t (0 : Fin 2) * 2048 + 1 * (y 0).val = (y 0).val; omega
  | ⟨1, _⟩ => show win0_15.index t (1 : Fin 2) * 512 + 1 * (y 1).val = (y 1).val; omega

/-- Entry `(k, r)` of window 15's tile is entry `(k, r)` of `main_arg12`. -/
theorem blk15_apply (c : Dev nD) (t : Fin cfg0.N) (k : Fin 2048) (r : Fin 512) :
    (iblk m c 15 t : S2048x512.Idx → EReal) (ix2 k r) = (m ((c : Thread nD τ).loc main_arg12)) (ix2 (⟨k.val, by omega⟩ : Fin 4096) r) := by
  rw [blk15_whole, main_v13_eq]; exact top_half_apply _ k r

/-- The array window 16 stages: the bottom half of `main_arg12`, changed of format. -/
theorem main_v15_eq (c : Dev nD) : (V m c main_v15 : S2048x512.Idx → EReal)
    = (truncf (F := Ideal) .bf16 (extractStridedSlice S2048x512 ![2048, 0] (m ((c : Thread nD τ).loc main_arg12)) slices_S4096x512_S2048x512_2048_0) bitsLt_bf16_f32 : FVec Ideal S2048x512 .bf16) := by
  dsimp only [Gen.V, Gen.hostOps0]; after_results

/-- Window 16 sits at block `(0, 0)` at every point. -/
theorem idx16 : ∀ t : Fin cfg0.N, win0_16.index t (0 : Fin 2) = 0 ∧ win0_16.index t (1 : Fin 2) = 0 :=
  (by decide +kernel : ∀ t : Fin grid0.N, _)

/-- So its tile is its whole array. -/
theorem blk16_whole (c : Dev nD) (t : Fin cfg0.N) (y : S2048x512.Idx) : (iblk m c 16 t : S2048x512.Idx → EReal) y = (V m c main_v15 : S2048x512.Idx → EReal) y := by
  show V m c main_v15 (((cfg0.win 16).blk t).view.emb y) = _
  refine congrArg _ (funext fun a => Fin.ext ?_)
  obtain ⟨e0, e1⟩ := idx16 t
  match a with
  | ⟨0, _⟩ => show win0_16.index t (0 : Fin 2) * 2048 + 1 * (y 0).val = (y 0).val; omega
  | ⟨1, _⟩ => show win0_16.index t (1 : Fin 2) * 512 + 1 * (y 1).val = (y 1).val; omega

/-- Entry `(k, r)` of window 16's tile is entry `(2048 + k, r)` of `main_arg12`. -/
theorem blk16_apply (c : Dev nD) (t : Fin cfg0.N) (k : Fin 2048) (r : Fin 512) :
    (iblk m c 16 t : S2048x512.Idx → EReal) (ix2 k r) = (m ((c : Thread nD τ).loc main_arg12)) (ix2 (⟨2048 + k.val, by omega⟩ : Fin 4096) r) := by
  rw [blk16_whole, main_v15_eq]; exact bottom_half_apply _ k r

/-- The array window 17 stages: `main_arg13`, changed of format. -/
theorem main_v19_eq (c : Dev nD) : (V m c main_v19 : S512x2048.Idx → EReal)
    = (truncf (F := Ideal) .bf16 (m ((c : Thread nD τ).loc main_arg13)) bitsLt_bf16_f32 : FVec Ideal S512x2048 .bf16) := by
  dsimp only [Gen.V, Gen.hostOps0]; after_results

/-- Window 17 sits at block `(0, 0)` at every point. -/
theorem idx17 : ∀ t : Fin cfg0.N, win0_17.index t (0 : Fin 2) = 0 ∧ win0_17.index t (1 : Fin 2) = 0 :=
  (by decide +kernel : ∀ t : Fin grid0.N, _)

/-- So its tile is its whole array. -/
theorem blk17_whole (c : Dev nD) (t : Fin cfg0.N) (y : S512x2048.Idx) : (iblk m c 17 t : S512x2048.Idx → EReal) y = (V m c main_v19 : S512x2048.Idx → EReal) y := by
  show V m c main_v19 (((cfg0.win 17).blk t).view.emb y) = _
  refine congrArg _ (funext fun a => Fin.ext ?_)
  obtain ⟨e0, e1⟩ := idx17 t
  match a with
  | ⟨0, _⟩ => show win0_17.index t (0 : Fin 2) * 512 + 1 * (y 0).val = (y 0).val; omega
  | ⟨1, _⟩ => show win0_17.index t (1 : Fin 2) * 2048 + 1 * (y 1).val = (y 1).val; omega

/-- Entry `(r, q)` of window 17's tile is entry `(r, q)` of `main_arg13`. -/
theorem blk17_apply (c : Dev nD) (t : Fin cfg0.N) (r : Fin 512) (q : Fin 2048) :
    (iblk m c 17 t : S512x2048.Idx → EReal) (ix2 r q) = (m ((c : Thread nD τ).loc main_arg13)) (ix2 r q) := by
  rw [blk17_whole, main_v19_eq]; rfl

/-- The array window 18 stages: `main_arg14` as a 1 × 2048 row. -/
theorem main_v23_eq (c : Dev nD) : (V m c main_v23 : S1x2048.Idx → EReal) = shapeCast S1x2048 (m ((c : Thread nD τ).loc main_arg14)) shapeCasts_S2048_S1x2048 := by
  dsimp only [Gen.V, Gen.hostOps0]; after_results; rfl

/-- Window 18 sits at block `(0, 0)` at every point. -/
theorem idx18 : ∀ t : Fin cfg0.N, win0_18.index t (0 : Fin 2) = 0 ∧ win0_18.index t (1 : Fin 2) = 0 :=
  (by decide +kernel : ∀ t : Fin grid0.N, _)

/-- So its tile is its whole array. -/
theorem blk18_whole (c : Dev nD) (t : Fin cfg0.N) (y : S1x2048.Idx) : (iblk m c 18 t : S1x2048.Idx → EReal) y = (V m c main_v23 : S1x2048.Idx → EReal) y := by
  show V m c main_v23 (((cfg0.win 18).blk t).view.emb y) = _
  refine congrArg _ (funext fun a => Fin.ext ?_)
  obtain ⟨e0, e1⟩ := idx18 t
  match a with
  | ⟨0, _⟩ => show win0_18.index t (0 : Fin 2) * 1 + 1 * (y 0).val = (y 0).val; omega
  | ⟨1, _⟩ => show win0_18.index t (1 : Fin 2) * 2048 + 1 * (y 1).val = (y 1).val; omega

/-- Entry `(0, q)` of window 18's tile is entry `q` of `main_arg14`. -/
theorem blk18_apply (c : Dev nD) (t : Fin cfg0.N) (q : Fin 2048) :
    (iblk m c 18 t : S1x2048.Idx → EReal) (ix2 (0 : Fin 1) q) = (m ((c : Thread nD τ).loc main_arg14)) (ix1 q) := by
  rw [blk18_whole, main_v23_eq]; exact as_row_apply _ q

end Cert.KernelIdeal.Tiles

end
-- ==== Proof.Tiles.lean ====
/-
  What the kernel body stores at a grid point is the cell of `Cell.lean` of the argument arrays.

  At grid point `t` the body stores, at entry `(p, q)` of each output tile, the cell formula of the gates at that entry
  (`Body.lean`). The tiles of `x`, `h`, `c` are rows `128 t … 128 t + 127` of the arrays (`Reads.lean`) and the weight tiles are
  the halves of the gates' first factors, their second factors and their bias rows (`WeightReads.lean`). So each tile-level
  gate is the array-level gate at row `128 t + p`, column `q`, and the stored entry is `cellC` (for the hidden state `cellH`) of
  the argument arrays at `(128 t + p, q)`.
-/
import proofs.«162020_j19009525252388_1_alg».proof.Proof.Body
import proofs.«162020_j19009525252388_1_alg».proof.Proof.WeightReads

noncomputable section

namespace Cert.KernelIdeal.Tiles

open Cert.KernelIdeal Cert.KernelIdeal.Gen Idealize.ShloMosaic Idealize.ShloMosaic.TcCoe Idealize.SL.Sem
open Idealize.ShloMosaic.ValueIdx Cert.Lstm Cert.KernelIdeal.Body

variable (m : (ℓ : Loc nD τ sig) → Buf (Elt Ideal) ℓ)

/-! ## The two results as functions of a core's argument arrays -/

/-- The new cell state of core `c`'s arguments. -/
abbrev cellOut (c : Dev nD) : Mat 8192 2048 :=
  cellC (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The new hidden state of core `c`'s arguments. -/
abbrev hiddenOut (c : Dev nD) : Mat 8192 2048 :=
  cellH (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-! ## What the body stores at a point -/

/-- The tile the body stores into the cell-state window at point `t`, over the input windows' tiles there. -/
abbrev cellTile (c : Dev nD) (t : Fin cfg0.N) : FVec Ideal S128x2048 .f32 :=
  k0_pay8 (F := Ideal) (k0_pay2 (iblk m c 0 t)) (k0_pay3 (iblk m c 1 t)) (iblk m c 2 t)
    (k0_pay4 (iblk m c 0 t) (iblk m c 1 t) (iblk m c 3 t) (iblk m c 4 t) (iblk m c 5 t) (iblk m c 6 t))
    (k0_pay5 (iblk m c 9 t)) (k0_pay6 (iblk m c 10 t)) (k0_pay7 (iblk m c 0 t) (iblk m c 1 t) (iblk m c 7 t) (iblk m c 8 t))
    (iblk m c 11 t) (iblk m c 12 t) (iblk m c 13 t) (iblk m c 14 t)

/-- The tile the body stores into the hidden-state window at point `t`. -/
abbrev hiddenTile (c : Dev nD) (t : Fin cfg0.N) : FVec Ideal S128x2048 .f32 :=
  k0_pay1 (F := Ideal) (cellTile m c t) (k0_pay9 (iblk m c 18 t))
    (k0_pay10 (k0_pay2 (iblk m c 0 t)) (k0_pay3 (iblk m c 1 t)) (iblk m c 15 t) (iblk m c 16 t) (iblk m c 17 t))

/-- Entry `(p, q)` of the stored cell tile is the new cell state at row `128 t + p`, column `q`: the forget gate reads windows
    7 to 10, the input gate windows 3 to 6, the candidate gate windows 11 to 14, and `c`'s tile is window 2. -/
theorem cell_at (c : Dev nD) (t : Fin cfg0.N) (p : Fin 128) (q : Fin 2048) :
    cellTile m c t (ix2 p q) = cellOut m c (ix2 (rowOf t p) q) := by
  refine (cell_payload_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) p q).trans ?_
  have hforget := gateAt_eq_gate (iblk m c 0 t) (iblk m c 1 t) (iblk m c 7 t) (iblk m c 8 t) (iblk m c 9 t) (iblk m c 10 t)
    (m ((c : Thread nD τ).loc main_arg0)) (m ((c : Thread nD τ).loc main_arg1)) (m ((c : Thread nD τ).loc main_arg6))
    (m ((c : Thread nD τ).loc main_arg7)) (m ((c : Thread nD τ).loc main_arg8)) p q (rowOf t p) q
    (blk0_apply m c t p) (blk1_apply m c t p) (blk7_apply m c t) (blk8_apply m c t) (fun r => blk9_apply m c t r q)
    (blk10_apply m c t q)
  have hinput := gateAt_eq_gate (iblk m c 0 t) (iblk m c 1 t) (iblk m c 3 t) (iblk m c 4 t) (iblk m c 5 t) (iblk m c 6 t)
    (m ((c : Thread nD τ).loc main_arg0)) (m ((c : Thread nD τ).loc main_arg1)) (m ((c : Thread nD τ).loc main_arg3))
    (m ((c : Thread nD τ).loc main_arg4)) (m ((c : Thread nD τ).loc main_arg5)) p q (rowOf t p) q
    (blk0_apply m c t p) (blk1_apply m c t p) (blk3_apply m c t) (blk4_apply m c t) (fun r => blk5_apply m c t r q)
    (blk6_apply m c t q)
  have hcand := gateAt_eq_gate (iblk m c 0 t) (iblk m c 1 t) (iblk m c 11 t) (iblk m c 12 t) (iblk m c 13 t) (iblk m c 14 t)
    (m ((c : Thread nD τ).loc main_arg0)) (m ((c : Thread nD τ).loc main_arg1)) (m ((c : Thread nD τ).loc main_arg9))
    (m ((c : Thread nD τ).loc main_arg10)) (m ((c : Thread nD τ).loc main_arg11)) p q (rowOf t p) q
    (blk0_apply m c t p) (blk1_apply m c t p) (blk11_apply m c t) (blk12_apply m c t) (fun r => blk13_apply m c t r q)
    (blk14_apply m c t q)
  rw [hforget, hinput, hcand, blk2_apply m c t p q]
  rfl

/-- Entry `(p, q)` of the stored hidden tile is the new hidden state at row `128 t + p`, column `q`: the output gate reads
    windows 15 to 18, and the cell state under the `tanh` is the stored cell tile. -/
theorem hidden_at (c : Dev nD) (t : Fin cfg0.N) (p : Fin 128) (q : Fin 2048) :
    hiddenTile m c t (ix2 p q) = hiddenOut m c (ix2 (rowOf t p) q) := by
  refine (hidden_payload_apply (cellTile m c t) (iblk m c 0 t) (iblk m c 1 t) (iblk m c 15 t) (iblk m c 16 t) (iblk m c 17 t)
    (iblk m c 18 t) p q).trans ?_
  have houtput := gateAt_eq_gate (iblk m c 0 t) (iblk m c 1 t) (iblk m c 15 t) (iblk m c 16 t) (iblk m c 17 t) (iblk m c 18 t)
    (m ((c : Thread nD τ).loc main_arg0)) (m ((c : Thread nD τ).loc main_arg1)) (m ((c : Thread nD τ).loc main_arg12))
    (m ((c : Thread nD τ).loc main_arg13)) (m ((c : Thread nD τ).loc main_arg14)) p q (rowOf t p) q
    (blk0_apply m c t p) (blk1_apply m c t p) (blk15_apply m c t) (blk16_apply m c t) (fun r => blk17_apply m c t r q)
    (blk18_apply m c t q)
  rw [houtput, cell_at m c t p q]
  rfl

end Cert.KernelIdeal.Tiles

end
-- ==== Proof.OutputTiles.lean ====
/-
  From tiles to arrays: after the kernel's run each result array holds its function of the argument arrays.

  An output window sits at block `(t, 0)` at grid point `t`, so entry `(p, q)` of its block is entry `(128 t + p, q)` of its array.
  What point `t` writes back is the tile the body stored, which entry by entry is the result function at `(128 t + p, q)`
  (`Tiles.lean`): block `t` of that ONE function. The 64 blocks of 128 rows tile the 8192 rows, row `r` lying in the block of point
  `r / 128`, so the whole array ends at the function.
-/
import proofs.«162020_j19009525252388_1_alg».proof.Proof.Gen.KernelIdeal.Value
import proofs.«162020_j19009525252388_1_alg».proof.Proof.Tiles

noncomputable section

namespace Cert.KernelIdeal.Tiles

open Cert.KernelIdeal Cert.KernelIdeal.Gen Idealize.ShloMosaic Idealize.ShloMosaic.TcCoe Idealize.SL.Sem
open Idealize.ShloMosaic.ValueIdx Cert.Lstm Cert.KernelIdeal.Body
open Idealize.ShloMosaic.Pipeline (Dat)

variable (m : (ℓ : Loc nD τ sig) → Buf (Elt Ideal) ℓ)

theorem origin : (![0, 0] : Fin 2 → Nat) = fun _ => 0 := funext fun a => by fin_cases a <;> rfl

/-! ## Window 19: the new hidden state -/

/-- Window 19 sits at block `(t, 0)` at point `t`. -/
theorem idx19 : ∀ t : Fin cfg0.N, win0_19.index t (0 : Fin 2) = t.val ∧ win0_19.index t (1 : Fin 2) = 0 :=
  (by decide +kernel : ∀ t : Fin grid0.N, _)

/-- Entry `(p, q)` of point `t`'s block of its array is the array's entry `(128 t + p, q)`. -/
theorem emb19 (t : Fin cfg0.N) (p : Fin 128) (q : Fin 2048) :
    ((cfg0.win 19).blk t).view.emb (ix2 p q) = ix2 (rowOf t p) q := by
  refine funext fun a => Fin.ext ?_
  obtain ⟨e0, e1⟩ := idx19 t
  match a with
  | ⟨0, _⟩ => show win0_19.index t (0 : Fin 2) * 128 + 1 * p.val = t.val * 128 + p.val; omega
  | ⟨1, _⟩ => show win0_19.index t (1 : Fin 2) * 2048 + 1 * q.val = q.val; omega

/-- What point `t` writes back to the array is block `t` of `hiddenOut`. -/
theorem flushed19_eq (c : Dev nD) (t : Fin cfg0.N) :
    (dats m 0 c).flushed 19 t = ((cfg0.win 19).blk t).view.read (Elt Ideal) (hiddenOut m c) := by
  rw [Value.flushed19]
  unfold out0_19
  rw [View.canon_unit_zero origin]
  simp only [View.ld_unit_zero (S := S128x2048) origin, View.ld_unit_zero (S := S2048x512) origin,
    View.ld_unit_zero (S := S512x2048) origin, View.ld_unit_zero (S := S1x2048) origin]
  refine funext fun (y : S128x2048.Idx) => ?_
  obtain ⟨p, q, rfl⟩ : ∃ (p : Fin 128) (q : Fin 2048), y = ix2 p q := ⟨y 0, y 1, eq_ix2 y⟩
  show hiddenTile m c t (ix2 p q) = hiddenOut m c (((cfg0.win 19).blk t).view.emb (ix2 p q))
  rw [emb19 t p q]
  exact hidden_at m c t p q

/-- An index is in point `t`'s block iff each coordinate is in the block's range on its axis. -/
theorem mem_blk19 (t : Fin cfg0.N) (i : S8192x2048.Idx) :
    i ∈ ((cfg0.win 19).blk t).view.set ↔ ∀ a : Fin 2, win0_19.index t a * S128x2048.size a ≤ (i a).val ∧ (i a).val < win0_19.index t a * S128x2048.size a + S128x2048.size a := by
  show i ∈ ((View.whole main_v24_0).slice (win0_19.rect t)).set ↔ _
  rw [View.set_slice_whole, Rect.mem_set_unit]
  exact Iff.rfl

/-- Row `r` lies in the block of point `r / 128`: every index of the array is in some point's block. -/
theorem cover19 (i : S8192x2048.Idx) :
    ∃ t : Fin cfg0.N, (cfg0.win 19).flush t = true ∧ i ∈ ((cfg0.win 19).blk t).view.set := by
  have hi0 : (i 0).val < 8192 := (i 0).isLt
  have hi1 : (i 1).val < 2048 := (i 1).isLt
  have ht : (i 0).val / 128 < cfg0.N := lt_of_lt_of_eq (by omega : (i 0).val / 128 < 64) N_0.symm
  obtain ⟨e0, e1⟩ := idx19 ⟨(i 0).val / 128, ht⟩
  refine ⟨⟨(i 0).val / 128, ht⟩, flush0_19 _, ?_⟩
  rw [mem_blk19]
  intro a
  match a with
  | ⟨0, _⟩ =>
    show win0_19.index ⟨(i 0).val / 128, ht⟩ (0 : Fin 2) * 128 ≤ (i 0).val ∧ (i 0).val < win0_19.index ⟨(i 0).val / 128, ht⟩ (0 : Fin 2) * 128 + 128
    rw [e0]
    show (i 0).val / 128 * 128 ≤ (i 0).val ∧ (i 0).val < (i 0).val / 128 * 128 + 128
    omega
  | ⟨1, _⟩ =>
    show win0_19.index ⟨(i 0).val / 128, ht⟩ (1 : Fin 2) * 2048 ≤ (i 1).val ∧ (i 1).val < win0_19.index ⟨(i 0).val / 128, ht⟩ (1 : Fin 2) * 2048 + 2048
    omega

/-- So after the run the array holds `hiddenOut`. -/
theorem final19 (c : Dev nD) : (dats m 0 c).arrAt 19 cfg0.N = hiddenOut m c :=
  (dats m 0 c).arrAt_eq_of_cover 19 _ (fun t _ => flushed19_eq m c t) cover19

/-! ## Window 20: the new cell state -/

/-- Window 20 sits at block `(t, 0)` at point `t`. -/
theorem idx20 : ∀ t : Fin cfg0.N, win0_20.index t (0 : Fin 2) = t.val ∧ win0_20.index t (1 : Fin 2) = 0 :=
  (by decide +kernel : ∀ t : Fin grid0.N, _)

/-- Entry `(p, q)` of point `t`'s block of its array is the array's entry `(128 t + p, q)`. -/
theorem emb20 (t : Fin cfg0.N) (p : Fin 128) (q : Fin 2048) :
    ((cfg0.win 20).blk t).view.emb (ix2 p q) = ix2 (rowOf t p) q := by
  refine funext fun a => Fin.ext ?_
  obtain ⟨e0, e1⟩ := idx20 t
  match a with
  | ⟨0, _⟩ => show win0_20.index t (0 : Fin 2) * 128 + 1 * p.val = t.val * 128 + p.val; omega
  | ⟨1, _⟩ => show win0_20.index t (1 : Fin 2) * 2048 + 1 * q.val = q.val; omega

/-- What point `t` writes back to the array is block `t` of `cellOut`. -/
theorem flushed20_eq (c : Dev nD) (t : Fin cfg0.N) :
    (dats m 0 c).flushed 20 t = ((cfg0.win 20).blk t).view.read (Elt Ideal) (cellOut m c) := by
  rw [Value.flushed20]
  unfold out0_20
  rw [View.canon_unit_zero origin]
  simp only [View.ld_unit_zero (S := S128x2048) origin, View.ld_unit_zero (S := S2048x512) origin,
    View.ld_unit_zero (S := S512x2048) origin, View.ld_unit_zero (S := S1x2048) origin]
  refine funext fun (y : S128x2048.Idx) => ?_
  obtain ⟨p, q, rfl⟩ : ∃ (p : Fin 128) (q : Fin 2048), y = ix2 p q := ⟨y 0, y 1, eq_ix2 y⟩
  show cellTile m c t (ix2 p q) = cellOut m c (((cfg0.win 20).blk t).view.emb (ix2 p q))
  rw [emb20 t p q]
  exact cell_at m c t p q

/-- An index is in point `t`'s block iff each coordinate is in the block's range on its axis. -/
theorem mem_blk20 (t : Fin cfg0.N) (i : S8192x2048.Idx) :
    i ∈ ((cfg0.win 20).blk t).view.set ↔ ∀ a : Fin 2, win0_20.index t a * S128x2048.size a ≤ (i a).val ∧ (i a).val < win0_20.index t a * S128x2048.size a + S128x2048.size a := by
  show i ∈ ((View.whole main_v24_1).slice (win0_20.rect t)).set ↔ _
  rw [View.set_slice_whole, Rect.mem_set_unit]
  exact Iff.rfl

/-- Row `r` lies in the block of point `r / 128`: every index of the array is in some point's block. -/
theorem cover20 (i : S8192x2048.Idx) :
    ∃ t : Fin cfg0.N, (cfg0.win 20).flush t = true ∧ i ∈ ((cfg0.win 20).blk t).view.set := by
  have hi0 : (i 0).val < 8192 := (i 0).isLt
  have hi1 : (i 1).val < 2048 := (i 1).isLt
  have ht : (i 0).val / 128 < cfg0.N := lt_of_lt_of_eq (by omega : (i 0).val / 128 < 64) N_0.symm
  obtain ⟨e0, e1⟩ := idx20 ⟨(i 0).val / 128, ht⟩
  refine ⟨⟨(i 0).val / 128, ht⟩, flush0_20 _, ?_⟩
  rw [mem_blk20]
  intro a
  match a with
  | ⟨0, _⟩ =>
    show win0_20.index ⟨(i 0).val / 128, ht⟩ (0 : Fin 2) * 128 ≤ (i 0).val ∧ (i 0).val < win0_20.index ⟨(i 0).val / 128, ht⟩ (0 : Fin 2) * 128 + 128
    rw [e0]
    show (i 0).val / 128 * 128 ≤ (i 0).val ∧ (i 0).val < (i 0).val / 128 * 128 + 128
    omega
  | ⟨1, _⟩ =>
    show win0_20.index ⟨(i 0).val / 128, ht⟩ (1 : Fin 2) * 2048 ≤ (i 1).val ∧ (i 1).val < win0_20.index ⟨(i 0).val / 128, ht⟩ (1 : Fin 2) * 2048 + 2048
    omega

/-- So after the run the array holds `cellOut`. -/
theorem final20 (c : Dev nD) : (dats m 0 c).arrAt 20 cfg0.N = cellOut m c :=
  (dats m 0 c).arrAt_eq_of_cover 20 _ (fun t _ => flushed20_eq m c t) cover20

end Cert.KernelIdeal.Tiles

end
-- ==== Proof.KernelRun.lean ====
/-
  The kernel's run, read: every weakly fair execution of the kernel's program terminates with its first result array at the new
  hidden state and its second at the new cell state of the argument arrays (the functions `hiddenOut` and `cellOut`), and the
  arguments as they were. It is the run of the generated frame with the two result arrays named, each then identified by
  `OutputTiles.lean`.
-/
import proofs.«162020_j19009525252388_1_alg».proof.Proof.OutputTiles

noncomputable section

namespace Cert.KernelIdeal.Tiles

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v24_0) = hiddenOut m c
      ∧ r.2.mem ((c : Thread nD τ).loc main_v24_1) = cellOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final19 m c), (h c).2.1.trans (final20 m c), (h c).2.2⟩)
    (Value.run_blocks m ρ)

end Cert.KernelIdeal.Tiles

end
-- ==== Proof.lean ====
/-
  A factorized LSTM cell: a Pallas kernel over 64 tiles of 128 batch rows against its jnp reference, equal on the extended reals.

  Both programs compute, for each of four gates with weights `(U, V, b)`, the pre-activation `([x | h] · U) · V + b`, then
  `c' = σ(z_f) · c + σ(z_i) · tanh(z_c)` and `h' = σ(z_o) · tanh(c')`. They differ in three ways, none of which survives on the
  extended reals. The reference joins `x` and `h` and contracts over all 4096 rows of `U`; the kernel contracts `x` with the
  top half of `U` and `h` with the bottom half and adds: one sum regrouped (`Cell.lean`, `sum_halves`; no finiteness is used, so
  the precondition is never opened). The kernel changes float format before each product: the identity here. The reference
  spells the sigmoid `1 / (1 + e^(-z))` where the kernel has one logistic operation: the same function at every extended real
  (`logistic_spelt`). The reference's side is `RefCell.lean` over its generated run; the kernel's is `Body.lean` (one entry of a
  tile), `Reads.lean` / `WeightReads.lean` (what each window's tile holds), `Tiles.lean` / `OutputTiles.lean` (tiles to arrays)
  and `KernelRun.lean`, over its generated frame. The two frames of the kernel are the generated ones, the reference's frame is
  its run with the results dropped, and the idealization rewrote nothing.
-/
import proofs.«162020_j19009525252388_1_alg».proof.Defs
import proofs.«162020_j19009525252388_1_alg».proof.Proof.Gen.Kernel
import proofs.«162020_j19009525252388_1_alg».proof.Proof.Gen.Kernel.Skeleton
import proofs.«162020_j19009525252388_1_alg».proof.Proof.Gen.Kernel.Launch
import proofs.«162020_j19009525252388_1_alg».proof.Proof.Gen.Kernel.Points
import proofs.«162020_j19009525252388_1_alg».proof.Proof.Gen.Kernel.Frame
import proofs.«162020_j19009525252388_1_alg».proof.Proof.Gen.KernelIdeal
import proofs.«162020_j19009525252388_1_alg».proof.Proof.Gen.KernelIdeal.Skeleton
import proofs.«162020_j19009525252388_1_alg».proof.Proof.Gen.KernelIdeal.Launch
import proofs.«162020_j19009525252388_1_alg».proof.Proof.Gen.KernelIdeal.Points
import proofs.«162020_j19009525252388_1_alg».proof.Proof.Gen.KernelIdeal.Frame
import proofs.«162020_j19009525252388_1_alg».proof.Proof.Gen.ReferenceIdeal
import proofs.«162020_j19009525252388_1_alg».proof.Proof.Gen.Pre_finite_inputs
import proofs.«162020_j19009525252388_1_alg».proof.Proof.Gen.KernelIdeal.Value
import proofs.«162020_j19009525252388_1_alg».proof.Proof.Gen.ReferenceIdeal.Run
import proofs.«162020_j19009525252388_1_alg».proof.Proof.Gen.ReferenceIdeal.Read
import proofs.«162020_j19009525252388_1_alg».proof.Proof.RefCell
import proofs.«162020_j19009525252388_1_alg».proof.Proof.KernelRun
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as they were: its run, the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the fifteen arguments, the kernel's run ends with its results at `cellH` and `cellC` of the
    arguments (`Tiles.run`) and the reference's at its last stages of them, which are `cellH` and `cellC` too (`RefCell`). -/
theorem algebraic : Cert.algebraic_KernelIdeal_ReferenceIdeal := by
  intro m ρ m' ρ' _ hagree
  refine ⟨fun c => Cert.KernelIdeal.Tiles.hiddenOut m c, fun c => Cert.KernelIdeal.Tiles.cellOut m c,
    Cert.KernelIdeal.Tiles.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v44_eq, Cert.ReferenceIdeal.RefCell.hidden_eq, a0, a1, a2, a3, a4, a5, a6, a7, a8, a9, a10, a11, a12, a13, a14]
  · obtain ⟨a0, a1, a2, a3, a4, a5, a6, a7, a8, a9, a10, a11, a12, a13, a14⟩ := hagree c
    rw [Cert.ReferenceIdeal.Read.val_main_v42_eq, Cert.ReferenceIdeal.RefCell.cell_eq, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
